-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S2x128 : Shape := ⟨2, ![2, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg1 : IVec S640000 32) (main_arg2 : IVec S640000 32) (main_v13 : IVec S_ 1) (main_v15 : IVec S640000 1) (main_c_5 : IVec S_ 32) : IVec S_ 1 :=
  let main_v16 : IVec S640000 32 := broadcastInDim S640000 ![] bcast_S_S640000 main_c_5
  let main_v17 : IVec S640000 1 := cmpi .slt main_arg1 main_v16
  let main_v18 : IVec S640000 1 := andi main_v15 main_v17
  let main_c_6 : IVec S_ 1 := constantI S_ 1 1#1
  let main_v19 : IVec S_ 1 := (fun x v => Host.reduce IntOp.andi x v reducesTo_S640000_S_d0 h_S_) main_v18 main_c_6
  let main_v20 : IVec S_ 1 := andi main_v13 main_v19
  let main_c_7 : IVec S_ 32 := constantI S_ 32 0#32
  let main_v21 : IVec S640000 32 := broadcastInDim S640000 ![] bcast_S_S640000 main_c_7
  let main_v22 : IVec S640000 1 := cmpi .sge main_arg2 main_v21
  let main_c_8 : IVec S_ 32 := constantI S_ 32 10000#32
  let main_v23 : IVec S640000 32 := broadcastInDim S640000 ![] bcast_S_S640000 main_c_8
  let main_v24 : IVec S640000 1 := cmpi .slt main_arg2 main_v23
  let main_v25 : IVec S640000 1 := andi main_v22 main_v24
  let main_c_9 : IVec S_ 1 := constantI S_ 1 1#1
  let main_v26 : IVec S_ 1 := (fun x v => Host.reduce IntOp.andi x v reducesTo_S640000_S_d0 h_S_) main_v25 main_c_9
  let main_v27 : IVec S_ 1 := andi main_v20 main_v26
  main_v27

def fn {F : FTy → Type} [FloatOps F] (main_arg0 : FVec F S10000x128 .f32) (main_arg1 : IVec S640000 32) (main_arg2 : IVec S640000 32) (main_arg3 : FVec F S640000 .f32) (main_arg4 : FVec F S2x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg1 main_v14
  let main_c_5 : IVec S_ 32 := constantI S_ 32 10000#32
  fn_part1 (F := F) main_arg1 main_arg2 main_v13 main_v15 main_c_5
-- ==== Kernel.lean ====
abbrev S10000x128 : Shape := ⟨2, ![10000, 128]⟩
abbrev S640000 : Shape := ⟨1, ![640000]⟩
abbrev S2x128 : Shape := ⟨2, ![2, 128]⟩
abbrev S_ : Shape := ⟨0, ![]⟩
abbrev S102252544 : Shape := ⟨1, ![102252544]⟩
abbrev S640000x1 : Shape := ⟨2, ![640000, 1]⟩
abbrev S10112x10112 : Shape := ⟨2, ![10112, 10112]⟩
abbrev S10112x128 : Shape := ⟨2, ![10112, 128]⟩
abbrev S1 : Shape := ⟨1, ![1]⟩
abbrev S1x128 : Shape := ⟨2, ![1, 128]⟩
abbrev S128 : Shape := ⟨1, ![128]⟩
abbrev S128x10112 : Shape := ⟨2, ![128, 10112]⟩
abbrev S128x128 : Shape := ⟨2, ![128, 128]⟩

abbrev nBuf : Space → Nat
  | .hbm => 35
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S2x128, .f32⟩
  | .hbm, ⟨5, _⟩ => ⟨S_, .i32⟩
  | .hbm, ⟨6, _⟩ => ⟨S640000, .i32⟩
  | .hbm, ⟨7, _⟩ => ⟨S640000, .i32⟩
  | .hbm, ⟨8, _⟩ => ⟨S640000, .i32⟩
  | .hbm, ⟨9, _⟩ => ⟨S_, .f32⟩
  | .hbm, ⟨10, _⟩ => ⟨S102252544, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S102252544, .f32⟩
  | .hbm, ⟨20, _⟩ => ⟨S10112x10112, .f32⟩
  | .hbm, ⟨21, _⟩ => ⟨S_, .f32⟩
  | .hbm, ⟨22, _⟩ => ⟨S10112x128, .f32⟩
  | .hbm, ⟨23, _⟩ => ⟨S_, .i32⟩
  | .hbm, ⟨24, _⟩ => ⟨S1, .i32⟩
  | .hbm, ⟨25, _⟩ => ⟨S10112x128, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S10112x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S10112x128, .f32⟩
  | .hbm, ⟨34, _⟩ => ⟨S10000x128, .f32⟩
  | .local _ .vmem, ⟨0, _⟩ => ⟨S128x10112, .f32⟩
  | .local _ .vmem, ⟨1, _⟩ => ⟨S128x10112, .f32⟩
  | .local _ .vmem, ⟨2, _⟩ => ⟨S10112x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x10112, .f32⟩
  | .local _ .vmem, ⟨7, _⟩ => ⟨S128x10112, .f32⟩
  | .local _ .vmem, ⟨8, _⟩ => ⟨S10112x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x10112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S640000 : S_.BroadcastsInDim S640000 (![] : Fin 0 → Fin S640000.rank)
  bcast_S_S102252544 : S_.BroadcastsInDim S102252544 (![] : Fin 0 → Fin S102252544.rank)
  bcast_S640000_S640000x1_0 : S640000.BroadcastsInDim S640000x1 (![0] : Fin 1 → Fin S640000x1.rank)
  shapeCasts_S102252544_S10112x10112 : S102252544.ShapeCasts S10112x10112
  bcast_S_S10112x128 : S_.BroadcastsInDim S10112x128 (![] : Fin 0 → Fin S10112x128.rank)
  bcast_S_S1 : S_.BroadcastsInDim S1 (![] : Fin 0 → Fin S1.rank)
  slices_S2x128_S1x128_0_0 : S2x128.Slices ![0, 0] S1x128
  shapeCasts_S1x128_S128 : S1x128.ShapeCasts S128
  shapeCasts_S128_S1x128 : S128.ShapeCasts S1x128
  inb_S128x10112_S128x10112_0_0 : ∀ a, (![0, 0] : Fin 2 → Nat) a + S128x10112.size a ≤ S128x10112.size a
  h_S128x10112 : 0 < S128x10112.numel
  shapeCasts_S128x10112_S128x10112 : S128x10112.ShapeCasts S128x10112
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  slices_S2x128_S1x128_1_0 : S2x128.Slices ![1, 0] S1x128
  slices_S10112x128_S10000x128_0_0 : S10112x128.Slices ![0, 0] S10000x128
  scatter_S102252544_S640000x1_S640000_n_0_0_1_wf : ScatterDims.WF S102252544 S640000x1 S640000 [] [0] [0] 1
  scatter_S10112x128_S1_S10000x128_01_n_0_0_wf : ScatterDims.WF S10112x128 S1 S10000x128 [0, 1] [] [0] 0
  dot_S128x10112_S10112x128_S128x128_1_0_0_1_n_n_wf : DotDims.WF S128x10112 S10112x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10112.size a ≤ S10112x10112.size a
  hwx0_0 : ∀ i : grid0.Coords, EltTy.bits .f32 = 32 ∨ (Rect.block (s := S10112x10112) S128x10112.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10112x128.size a ≤ S10112x128.size a
  hwx0_1 : ∀ i : grid0.Coords, EltTy.bits .f32 = 32 ∨ (Rect.block (s := S10112x128) S10112x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S10112x128.size a
  hwx0_3 : ∀ i : grid0.Coords, EltTy.bits .f32 = 32 ∨ (Rect.block (s := S10112x128) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x10112.size a ≤ S10112x10112.size a
  hwx1_0 : ∀ i : grid1.Coords, EltTy.bits .f32 = 32 ∨ (Rect.block (s := S10112x10112) S128x10112.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10112x128.size a ≤ S10112x128.size a
  hwx1_1 : ∀ i : grid1.Coords, EltTy.bits .f32 = 32 ∨ (Rect.block (s := S10112x128) S10112x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S10112x128.size a
  hwx1_3 : ∀ i : grid1.Coords, EltTy.bits .f32 = 32 ∨ (Rect.block (s := S10112x128) S128x128.size (cc1_transform_3 i) (hinb1_3 i)).WholeWords (EltTy.packing .f32)

variable [Facts₀]

def scatter_S102252544_S640000x1_S640000_n_0_0_1 : ScatterDims S102252544 S640000x1 S640000 where
  updateWindowDims := []
  insertedWindowDims := [0]
  scatterDimsToOperandDims := [0]
  indexVectorDim := 1
  wf := scatter_S102252544_S640000x1_S640000_n_0_0_1_wf
def scatter_S10112x128_S1_S10000x128_01_n_0_0 : ScatterDims S10112x128 S1 S10000x128 where
  updateWindowDims := [0, 1]
  insertedWindowDims := []
  scatterDimsToOperandDims := [0]
  indexVectorDim := 0
  wf := scatter_S10112x128_S1_S10000x128_01_n_0_0_wf
def dot_S128x10112_S10112x128_S128x128_1_0_0_1_n_n : DotDims S128x10112 S10112x128 S128x128 where
  lhsContracting := [1]
  rhsContracting := [0]
  lhsNonContracting := [0]
  rhsNonContracting := [1]
  lhsBatch := []
  rhsBatch := []
  wf := dot_S128x10112_S10112x128_S128x128_1_0_0_1_n_n_wf

abbrev win0_0 : Pipeline.Window sig grid0 :=
  Pipeline.Window.ofSpec (Memref.whole main_v11) S128x10112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10112x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S128x10112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10112x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000 : Shape := ⟨1, ![640000]⟩
abbrev S2x128 : Shape := ⟨2, ![2, 128]⟩
abbrev S1x128 : Shape := ⟨2, ![1, 128]⟩
abbrev S128 : Shape := ⟨1, ![128]⟩
abbrev S_ : Shape := ⟨0, ![]⟩
abbrev S640000x1 : Shape := ⟨2, ![640000, 1]⟩
abbrev S640000x128 : Shape := ⟨2, ![640000, 128]⟩

abbrev nBuf : Space → Nat
  | .hbm => 48
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S2x128, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x1, .f32⟩
  | .hbm, ⟨20, _⟩ => ⟨S640000x128, .f32⟩
  | .hbm, ⟨21, _⟩ => ⟨S640000x128, .f32⟩
  | .hbm, ⟨22, _⟩ => ⟨S_, .f32⟩
  | .hbm, ⟨23, _⟩ => ⟨S10000x128, .f32⟩
  | .hbm, ⟨24, _⟩ => ⟨S640000x1, .i32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S640000x1, .f32⟩
  | .hbm, ⟨42, _⟩ => ⟨S640000x128, .f32⟩
  | .hbm, ⟨43, _⟩ => ⟨S640000x128, .f32⟩
  | .hbm, ⟨44, _⟩ => ⟨S_, .f32⟩
  | .hbm, ⟨45, _⟩ => ⟨S10000x128, .f32⟩
  | .hbm, ⟨46, _⟩ => ⟨S640000x1, .i32⟩
  | .hbm, ⟨47, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  slices_S2x128_S1x128_1_0 : S2x128.Slices ![1, 0] S1x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.Spec.lean ====
/-
  The mathematics both programs compute, over the reals.

  A graph on 10000 nodes is given as 640000 weighted edges: edge `e` goes from node `s e` to node `d e` with weight
  `v e`. One layer sends a feature matrix `h` (one row of 128 features per node) to the matrix whose row `r` is the
  weighted sum, over the edges arriving at `r`, of the source rows scaled columnwise by `w`:
      layerR h w r j = ∑ e with d e = r, (h (s e) j * w j) * v e.
  The dense form first adds the weights of parallel edges into an adjacency matrix of side 10112 (the node count padded
  to a multiple of 128), `adj r c = ∑ e with d e = r and s e = c, v e` — the condition written as one equation between
  flat positions `d e * 10112 + s e = r * 10112 + c` —, multiplies it with the feature matrix and scales afterwards:
      layerK h w r j = (∑ c < 10112, adj r c * h c j) * w j.
  The two agree on every row because multiplication distributes over the finite sums of reals and each edge meets
  exactly one column `c = s e`. The network is two layers with a hyperbolic tangent between them.
-/
import Idealize.ShloMosaic.Lib.ValueIdx
import Idealize.ShloMosaic.PureOps.Ideal

noncomputable section

namespace Cert.Spmm

open Idealize.ShloMosaic Idealize.ShloMosaic.ValueIdx
open scoped BigOperators

/-- One layer as the edge list states it: row `r` gathers the scaled source rows of the edges arriving at `r`. -/
def layerR (s d : Fin 640000 → ℕ) (v : Fin 640000 → ℝ) (h : ℕ → Fin 128 → ℝ) (w : Fin 128 → ℝ) (r : ℕ) (j : Fin 128) : ℝ :=
  ∑ e : Fin 640000, if d e = r then (h (s e) j * w j) * v e else 0

/-- The dense adjacency matrix: entry `(r, c)` adds the weights of the edges from `c` to `r`, the pair read as one
    flat position in a square of side 10112. -/
def adj (s d : Fin 640000 → ℕ) (v : Fin 640000 → ℝ) (r c : ℕ) : ℝ :=
  ∑ e : Fin 640000, if d e * 10112 + s e = r * 10112 + c then v e else 0

/-- One layer as a dense product: adjacency times features, the column scale applied to the product. -/
def layerK (s d : Fin 640000 → ℕ) (v : Fin 640000 → ℝ) (h : ℕ → Fin 128 → ℝ) (w : Fin 128 → ℝ) (r : ℕ) (j : Fin 128) : ℝ :=
  (∑ c : Fin 10112, adj s d v r c.val * h c.val j) * w j

/-- The features with zero rows from row 10000 on. -/
def pad (x : ℕ → Fin 128 → ℝ) : ℕ → Fin 128 → ℝ := fun r j => if r < 10000 then x r j else 0

/-- Two edge-list layers, a hyperbolic tangent between. -/
def outR (s d : Fin 640000 → ℕ) (v : Fin 640000 → ℝ) (x : ℕ → Fin 128 → ℝ) (w0 w1 : Fin 128 → ℝ) (r : ℕ) (j : Fin 128) : ℝ :=
  layerR s d v (fun r' j' => Real.tanh (layerR s d v x w0 r' j')) w1 r j

/-- Two dense layers over the padded features, a hyperbolic tangent between. -/
def outK (s d : Fin 640000 → ℕ) (v : Fin 640000 → ℝ) (x : ℕ → Fin 128 → ℝ) (w0 w1 : Fin 128 → ℝ) (r : ℕ) (j : Fin 128) : ℝ :=
  layerK s d v (fun r' j' => Real.tanh (layerK s d v (pad x) w0 r' j')) w1 r j

/-- Two flat positions in a square of side 10112 agree exactly when their rows and their columns agree, the columns
    being below the side. -/
private theorem flat_eq_iff (a b r c : ℕ) (hb : b < 10112) (hc : c < 10112) :
    a * 10112 + b = r * 10112 + c ↔ a = r ∧ b = c := by
  constructor
  · intro h
    constructor <;> omega
  · rintro ⟨rfl, rfl⟩
    rfl

/-- The edge-list layer reads its features only at the source rows: two feature matrices that agree on every source
    row give the same layer. -/
private theorem layerR_congr (s d : Fin 640000 → ℕ) (v : Fin 640000 → ℝ) (h h' : ℕ → Fin 128 → ℝ) (w : Fin 128 → ℝ)
    (hh : ∀ e j, h (s e) j = h' (s e) j) (r : ℕ) (j : Fin 128) :
    layerR s d v h w r j = layerR s d v h' w r j := by
  unfold layerR
  refine Finset.sum_congr rfl (fun e _ => ?_)
  rw [hh e j]

/-- A dense layer is the edge-list layer, on every row, when every source node is below the padded side. -/
theorem layerK_eq_layerR (s d : Fin 640000 → ℕ) (v : Fin 640000 → ℝ) (hs : ∀ e, s e < 10112) (h : ℕ → Fin 128 → ℝ)
    (w : Fin 128 → ℝ) (r : ℕ) (j : Fin 128) : layerK s d v h w r j = layerR s d v h w r j := by
  unfold layerK adj layerR
  -- distribute the two factors over both sums, then sum over the edges outermost
  simp only [Finset.sum_mul]
  rw [Finset.sum_comm]
  refine Finset.sum_congr rfl (fun e _ => ?_)
  by_cases hdr : d e = r
  · -- the edge arrives at row r: only the column of its source contributes
    rw [if_pos hdr, Finset.sum_eq_single (⟨s e, hs e⟩ : Fin 10112)]
    · rw [if_pos ((flat_eq_iff (d e) (s e) r (s e) (hs e) (hs e)).mpr ⟨hdr, rfl⟩)]
      ring
    · intro c _ hc
      rw [if_neg, zero_mul, zero_mul]
      intro heq
      apply hc
      apply Fin.ext
      exact ((flat_eq_iff (d e) (s e) r c.val (hs e) c.isLt).mp heq).2.symm
    · intro hnot
      exact absurd (Finset.mem_univ _) hnot
  · -- the edge arrives elsewhere: no column contributes
    rw [if_neg hdr]
    apply Finset.sum_eq_zero
    intro c _
    rw [if_neg, zero_mul, zero_mul]
    intro heq
    exact hdr ((flat_eq_iff (d e) (s e) r c.val (hs e) c.isLt).mp heq).1

/-- The two networks agree when every source node is a real node. -/
theorem outK_eq_outR (s d : Fin 640000 → ℕ) (v : Fin 640000 → ℝ) (hs : ∀ e, s e < 10000) (x : ℕ → Fin 128 → ℝ)
    (w0 w1 : Fin 128 → ℝ) (r : ℕ) (j : Fin 128) : outK s d v x w0 w1 r j = outR s d v x w0 w1 r j := by
  have hs' : ∀ e, s e < 10112 := fun e => by
    have := hs e
    omega
  unfold outK outR
  rw [layerK_eq_layerR s d v hs']
  -- the outer layer reads the hidden features only at source rows
  apply layerR_congr
  intro e j'
  show Real.tanh (layerK s d v (pad x) w0 (s e) j') = Real.tanh (layerR s d v x w0 (s e) j')
  rw [layerK_eq_layerR s d v hs']
  refine congrArg Real.tanh ?_
  -- the inner layer reads the input only at source rows, all real nodes, where padding changes nothing
  apply layerR_congr
  intro e' j''
  unfold pad
  rw [if_pos (hs e')]

/-! ## From the programs' arrays to the functions above -/

/-- An index array's entries as natural numbers (its words read signed; the precondition keeps them non-negative). -/
def idxOf (a : IVec (⟨1, ![640000]⟩ : Shape) 32) : Fin 640000 → ℕ := fun e => (a (ix1 e)).toInt.toNat

/-- The edge weights by edge number. -/
def valsOf (vr : (⟨1, ![640000]⟩ : Shape).Idx → ℝ) : Fin 640000 → ℝ := fun e => vr (ix1 e)

/-- The feature matrix by row number and column, zero past its last row. -/
def featOf (xr : (⟨2, ![10000, 128]⟩ : Shape).Idx → ℝ) : ℕ → Fin 128 → ℝ :=
  fun r j => if h : r < 10000 then xr (ix2 ⟨r, h⟩ j) else 0

/-- Row `k` of the two rows of column scales. -/
def rowOf (wr : (⟨2, ![2, 128]⟩ : Shape).Idx → ℝ) (k : Fin 2) : Fin 128 → ℝ := fun j => wr (ix2 k j)

end Cert.Spmm

end
-- ==== Proof.PreFacts.lean ====
/-
  What the precondition says of the arguments: every entry of the three float arrays is a real number, and every
  entry of the two index arrays, read as a signed integer, lies in `[0, 10000)`.
-/
import proofs.«404564_j68204080660516_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Cert.Pre_finite_inputs Idealize.ShloMosaic

variable [Cert.Pre_finite_inputs.Facts]

/-- The scalar shape has one index. -/
private instance subsingleton_S_ : Subsingleton S_.Idx := ⟨fun _ _ => funext fun d => d.elim0⟩

/-- The bit pattern of +∞ reads as the top extended real. -/
private theorem inf_eq_top : Ideal.ofBits .f32 0x7F800000#32 = (⊤ : EReal) := by
  simp [Ideal.ofBits, Ideal.ieee]

/-- An extended real whose absolute value is below +∞ is a real number. -/
private theorem real_of_abs_lt_inf (x : EReal)
    (h : Ideal.cmp .olt (max x (-x)) (Ideal.ofBits .f32 0x7F800000#32) = 1#1) : ∃ r : ℝ, x = ((r : ℝ) : EReal) := by
  rw [inf_eq_top] at h
  induction x using EReal.rec with
  | bot => simp [Ideal.cmp] at h
  | coe r => exact ⟨r, rfl⟩
  | top => simp [Ideal.cmp] at h

/-- If "every |entry| is below +∞" holds of a float array, every entry is a real number. -/
private theorem reals_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∃ xr : s.Idx → ℝ, x = fun a => ((xr a : ℝ) : EReal) := by
  have hall : ∀ i, ∃ r : ℝ, x i = ((r : ℝ) : EReal) := fun i =>
    real_of_abs_lt_inf (x i) (Host.reduce_andi_all _ _ hr hu ValueIdx.ix0 e i)
  choose xr hxr using hall
  exact ⟨xr, funext hxr⟩

/-- If "every entry is at least 0 and below 10000, signed" holds of an index array, every entry's signed value is in [0, 10000). -/
private theorem range_of_all {s : Shape} {axes : List (Fin s.rank)} (x : IVec s 32)
    (hb : S_.BroadcastsInDim s (![] : Fin 0 → Fin s.rank)) (hr : s.ReducesTo axes S_) (hu : 0 < S_.numel)
    (e : Host.reduce IntOp.andi
          (andi (cmpi .sge x (broadcastInDim s ![] hb (constantI S_ 32 0#32)))
                (cmpi .slt x (broadcastInDim s ![] hb (constantI S_ 32 10000#32))))
          (constantI S_ 1 1#1) hr hu ValueIdx.ix0 = 1#1) :
    ∀ i, 0 ≤ (x i).toInt ∧ (x i).toInt < 10000 := by
  intro i
  have hi : IntOp.andi (IntOp.cmpi .sge (x i) 0#32) (IntOp.cmpi .slt (x i) 10000#32) = 1#1 :=
    Host.reduce_andi_all _ _ hr hu ValueIdx.ix0 e i
  obtain ⟨h0, h1⟩ := IntOp.andi_eq_one.1 hi
  rw [IntOp.cmpi_sge] at h0
  rw [IntOp.cmpi_slt] at h1
  have z0 : (0#32 : BitVec 32).toInt = 0 := by decide
  have z1 : (10000#32 : BitVec 32).toInt = 10000 := StableHlo.Predicate.toInt_ofNat_small 10000 (by norm_num)
  rw [z0] at h0
  rw [z1] at h1
  exact ⟨h0, h1⟩

/-- The precondition, all ones, gives real entries and index entries in range. -/
theorem of_pre (x0 : FVec Ideal S10000x128 .f32) (x1 x2 : IVec S640000 32) (x3 : FVec Ideal S640000 .f32)
    (x4 : FVec Ideal S2x128 .f32)
    (h : Cert.Pre_finite_inputs.fn (F := Ideal) x0 x1 x2 x3 x4 = fun _ => 1#1) :
    (∃ xr : S10000x128.Idx → ℝ, x0 = fun a => ((xr a : ℝ) : EReal))
    ∧ (∃ vr : S640000.Idx → ℝ, x3 = fun a => ((vr a : ℝ) : EReal))
    ∧ (∃ wr : S2x128.Idx → ℝ, x4 = fun a => ((wr a : ℝ) : EReal))
    ∧ (∀ e, 0 ≤ (x1 e).toInt ∧ (x1 e).toInt < 10000)
    ∧ (∀ e, 0 ≤ (x2 e).toInt ∧ (x2 e).toInt < 10000) := by
  have h0 := congrFun h ValueIdx.ix0
  dsimp only [fn, fn_part1] at h0
  obtain ⟨h1234, h5⟩ := IntOp.andi_eq_one.1 (show IntOp.andi _ _ = 1#1 from h0)
  obtain ⟨h123, h4⟩ := IntOp.andi_eq_one.1 (show IntOp.andi _ _ = 1#1 from h1234)
  obtain ⟨h12, h3⟩ := IntOp.andi_eq_one.1 (show IntOp.andi _ _ = 1#1 from h123)
  obtain ⟨h1, h2⟩ := IntOp.andi_eq_one.1 (show IntOp.andi _ _ = 1#1 from h12)
  exact ⟨reals_of_all x0 _ _ _ h1, reals_of_all x3 _ _ _ h2, reals_of_all x4 _ _ _ h3,
    range_of_all x1 _ _ _ h4, range_of_all x2 _ _ _ h5⟩

end Cert.PreFacts

end
-- ==== Proof.RefValue.lean ====
/-
  The reference's result, entry by entry, is the two-layer edge-list network over the reals.

  Each layer multiplies the features by a row of column scales, gathers the source row of every edge, scales it by the
  edge weight and adds it into the destination row. Read at entry `(r, c)`: the gather reads row `s e` (the clamp into
  `[0, 9999]` is the identity on an index in range), the scatter-add collects exactly the updates `(e, c)` with
  `d e = r`, and a finite sum of products of reals is the real sum read in the extended reals. That is `layerR`; two
  layers with the hyperbolic tangent of a real between them are `outR`.
-/
import proofs.«404564_j68204080660516_2_alg».proof.Proof.Gen.ReferenceIdeal.Read
import proofs.«404564_j68204080660516_2_alg».proof.Proof.Spec
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Spmm
open scoped BigOperators

local notation "gd" => gather_S10000x128_S640000x1_S640000x128_1_0_n_n_0_1_1128
local notation "sd" => scatter_S10000x128_S640000x1_S640000x128_1_0_0_1

/-- The gather of whole rows read at an index: the operand's row at the start index, read signed and clamped. -/
private theorem gather_rows_apply {α : Type} {w : Nat} (x : S10000x128.Idx → α) (idx : IVec S640000x1 w) (y : S640000x128.Idx) :
    Host.gather gd x idx y
      = x (ix2 ⟨min (idx (ix2 (y 0) 0)).toInt.toNat 9999, by omega⟩ (y 1)) := by
  unfold Host.gather
  congr 1
  funext a
  refine Fin.ext ?_
  match a with
  | ⟨0, _⟩ =>
    show GatherDims.start gd y idx 0 + GatherDims.batchCoord gd y 0 + GatherDims.offCoord gd y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd y ⟨List.idxOf (0 : Fin 2) (GatherDims.startIndexMap gd),
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show GatherDims.start gd y idx 1 + GatherDims.batchCoord gd y 1 + GatherDims.offCoord gd y 1 = _
    rw [GatherDims.batchCoord_eq_zero _ _ _ List.not_mem_nil]
    have h1 : (1 : Fin 2) ∉ GatherDims.startIndexMap gd := by
      intro h; exact absurd (List.mem_singleton.mp h) (by decide)
    have hk : (1 : Fin 2) ∈ GatherDims.sKept gd :=
      (GatherDims.mem_sKept _ _).mpr ⟨fun h => absurd (List.mem_singleton.mp h) (by decide), List.not_mem_nil⟩
    unfold GatherDims.start GatherDims.offCoord
    rw [dif_neg h1, dif_pos hk]
    simp only [Nat.add_zero, Nat.zero_add]
    rfl

/-! The scatter's landing position: update `(e, c)` lands at row `idx e` (read signed), column `c`. -/

private theorem sc_start0 {w : Nat} (j : S640000x128.Idx) (idx : IVec S640000x1 w) :
    ScatterDims.start sd j idx 0 = (idx (ix2 (j 0) 0)).toInt := by
  unfold ScatterDims.start
  rw [dif_pos (show (0 : Fin 2) ∈ ScatterDims.scatterDimsToOperandDims sd from List.mem_singleton.mpr rfl)]
  have hsi : ScatterDims.siIdx sd j ⟨List.idxOf (0 : Fin 2) (ScatterDims.scatterDimsToOperandDims sd),
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

private theorem sc_start1 {w : Nat} (j : S640000x128.Idx) (idx : IVec S640000x1 w) :
    ScatterDims.start sd j idx 1 = 0 := by
  unfold ScatterDims.start
  rw [dif_neg (show (1 : Fin 2) ∉ ScatterDims.scatterDimsToOperandDims sd from
    fun h => absurd (List.mem_singleton.mp h) (by decide))]

private theorem sc_window0 (j : S640000x128.Idx) : ScatterDims.window sd j 0 = 0 := by
  unfold ScatterDims.window
  rw [dif_neg (show (0 : Fin 2) ∉ ScatterDims.sKept sd from
    fun h => of_decide_eq_true (List.mem_filter.mp h).2 (List.mem_singleton.mpr rfl))]

private theorem sc_window1 (j : S640000x128.Idx) : ScatterDims.window sd j 1 = (j 1).val := by
  unfold ScatterDims.window
  rw [dif_pos (show (1 : Fin 2) ∈ ScatterDims.sKept sd from
    List.mem_filter.mpr ⟨List.mem_finRange _, decide_eq_true (fun h => absurd (List.mem_singleton.mp h) (by decide))⟩)]
  rfl

private theorem sc_resultIdx_iff {w : Nat} (j : S640000x128.Idx) (idx : IVec S640000x1 w) (i : S10000x128.Idx) :
    ScatterDims.resultIdx? sd j idx = some i ↔ (idx (ix2 (j 0) 0)).toInt = ((i 0).val : ℤ) ∧ j 1 = i 1 := by
  have hi0 := idx2_lt0 i
  have hj1 := idx2_lt1 j
  unfold ScatterDims.resultIdx?
  constructor
  · intro h
    split at h
    · rename_i hh
      have hfun := Option.some.inj h
      have e0 : (ScatterDims.start sd j idx 0 + ((ScatterDims.window sd j 0 : ℕ) : ℤ)).toNat = (i 0).val :=
        congrArg (fun f : S10000x128.Idx => (f 0).val) hfun
      have e1 : (ScatterDims.start sd j idx 1 + ((ScatterDims.window sd j 1 : ℕ) : ℤ)).toNat = (i 1).val :=
        congrArg (fun f : S10000x128.Idx => (f 1).val) hfun
      have h0 := (hh 0).1
      rw [sc_start0, sc_window0] at e0 h0
      rw [sc_start1, sc_window1] at e1
      refine ⟨by omega, Fin.ext (by omega)⟩
    · exact absurd h (by simp)
  · rintro ⟨h0, h1⟩
    have hall : ∀ a, 0 ≤ ScatterDims.start sd j idx a + ((ScatterDims.window sd j a : ℕ) : ℤ) ∧
        ScatterDims.start sd j idx a + ((ScatterDims.window sd j a : ℕ) : ℤ) < ((S10000x128.size a : ℕ) : ℤ) := by
      intro a
      match a with
      | ⟨0, _⟩ =>
        show 0 ≤ ScatterDims.start sd j idx 0 + ((ScatterDims.window sd j 0 : ℕ) : ℤ) ∧
          ScatterDims.start sd j idx 0 + ((ScatterDims.window sd j 0 : ℕ) : ℤ) < ((10000 : ℕ) : ℤ)
        rw [sc_start0, sc_window0]; omega
      | ⟨1, _⟩ =>
        show 0 ≤ ScatterDims.start sd j idx 1 + ((ScatterDims.window sd j 1 : ℕ) : ℤ) ∧
          ScatterDims.start sd j idx 1 + ((ScatterDims.window sd j 1 : ℕ) : ℤ) < ((128 : ℕ) : ℤ)
        rw [sc_start1, sc_window1]; omega
    rw [dif_pos hall]
    congr 1
    funext a
    refine Fin.ext ?_
    match a with
    | ⟨0, _⟩ =>
      show (ScatterDims.start sd j idx 0 + ((ScatterDims.window sd j 0 : ℕ) : ℤ)).toNat = (i 0).val
      rw [sc_start0, sc_window0]; omega
    | ⟨1, _⟩ =>
      show (ScatterDims.start sd j idx 1 + ((ScatterDims.window sd j 1 : ℕ) : ℤ)).toNat = (i 1).val
      rw [sc_start1, sc_window1, h1]; omega

/-- A finite sum of reals, read in the extended reals, is the sum of the terms read there. -/
private theorem coe_sum {ι : Type} (s : Finset ι) (f : ι → ℝ) :
    ((∑ e ∈ s, f e : ℝ) : EReal) = ∑ e ∈ s, ((f e : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The updates landing at `(r, c)` are those of column `c` on the edges whose index word reads `r`. -/
private theorem sc_sum {w : Nat} (idx : IVec S640000x1 w) (upd : S640000x128.Idx → EReal) (r : Fin 10000) (c : Fin 128) :
    ∑ j ∈ Finset.univ.filter (fun j => ScatterDims.resultIdx? sd j idx = some (ix2 r c)), upd j
      = ∑ e : Fin 640000, if (idx (ix2 e 0)).toInt = (r.val : ℤ) then upd (ix2 e c) else 0 := by
  rw [Finset.sum_filter, sum_idx2]
  refine Finset.sum_congr rfl fun e _ => ?_
  by_cases he : (idx (ix2 e 0)).toInt = (r.val : ℤ)
  · rw [if_pos he, Finset.sum_eq_single c]
    · rw [if_pos ((sc_resultIdx_iff (ix2 e c) idx (ix2 r c)).mpr ⟨he, rfl⟩)]
    · intro b _ hb
      rw [if_neg (fun h => hb ((sc_resultIdx_iff (ix2 e b) idx (ix2 r c)).mp h).2)]
    · intro h; exact absurd (Finset.mem_univ _) h
  · rw [if_neg he]
    refine Finset.sum_eq_zero fun b _ => ?_
    rw [if_neg (fun h => he ((sc_resultIdx_iff (ix2 e b) idx (ix2 r c)).mp h).1)]

/-- A signed comparison "below zero" of a word that reads non-negative is the bit `0`. -/
private theorem slt_zero_of_nonneg (a : BitVec 32) (h : 0 ≤ a.toInt) : IntOp.cmpi .slt a 0#32 = 0#1 := by
  have h0 : (0#32 : BitVec 32).toInt = 0 := by decide
  have hb : a.slt 0#32 = false := by
    simp only [BitVec.slt, h0, decide_eq_false_iff_not, not_lt]
    exact h
  show BitVec.ofBool (a.slt 0#32) = 0#1
  rw [hb]; rfl

/-- ONE LAYER at entry `(r, c)`: scatter-adding, by destination, the gathered source rows of `H * W` scaled by the
    edge weights is the edge-list layer over the reals, when every operand is real and the indices are in range. -/
private theorem layer_apply (H W Z : FVec Ideal S10000x128 .f32) (SI DI : IVec S640000x1 32) (V : FVec Ideal S640000x128 .f32)
    (src dst : IVec S640000 32) (vr : S640000.Idx → ℝ) (hf : ℕ → Fin 128 → ℝ) (wrow : Fin 128 → ℝ)
    (hs : ∀ e, 0 ≤ (src e).toInt ∧ (src e).toInt < 10000) (hd : ∀ e, 0 ≤ (dst e).toInt ∧ (dst e).toInt < 10000)
    (hH : ∀ (r : Fin 10000) (c : Fin 128), H (ix2 r c) = ((hf r.val c : ℝ) : EReal))
    (hW : ∀ (r : Fin 10000) (c : Fin 128), W (ix2 r c) = ((wrow c : ℝ) : EReal))
    (hZ : ∀ i, Z i = 0) (hSI : ∀ e : Fin 640000, SI (ix2 e 0) = src (ix1 e))
    (hDI : ∀ e : Fin 640000, DI (ix2 e 0) = dst (ix1 e))
    (hV : ∀ (e : Fin 640000) (c : Fin 128), V (ix2 e c) = ((vr (ix1 e) : ℝ) : EReal)) (r : Fin 10000) (c : Fin 128) :
    Host.scatterAdd sd Z DI (mulf (Host.gather gd (mulf H W) SI) V) (ix2 r c)
      = ((layerR (idxOf src) (idxOf dst) (valsOf vr) hf wrow r.val c : ℝ) : EReal) := by
  show Ideal.hostScatterAdd sd Z DI _ (ix2 r c) = _
  unfold Ideal.hostScatterAdd
  rw [hZ, zero_add, sc_sum]
  unfold layerR
  rw [coe_sum]
  refine Finset.sum_congr rfl fun e _ => ?_
  rw [hDI]
  have hde := hd (ix1 e)
  have hse := hs (ix1 e)
  have hdi : idxOf dst e = (dst (ix1 e)).toInt.toNat := rfl
  have hsi : idxOf src e = (src (ix1 e)).toInt.toNat := rfl
  by_cases hc : idxOf dst e = r.val
  · have hc' : (dst (ix1 e)).toInt = (r.val : ℤ) := by omega
    rw [if_pos hc, if_pos hc', mulf_apply, gather_rows_apply, mulf_apply, hH, hW, hV]
    have hmin : min (src (ix1 e)).toInt.toNat 9999 = idxOf src e := by omega
    show ((hf (min (SI (ix2 e 0)).toInt.toNat 9999) c : ℝ) : EReal) * ((wrow c : ℝ) : EReal) * ((vr (ix1 e) : ℝ) : EReal) = _
    rw [hSI, hmin, EReal.coe_mul, EReal.coe_mul]
    rfl
  · have hc' : ¬ (dst (ix1 e)).toInt = (r.val : ℤ) := by omega
    rw [if_neg hc, if_neg hc', EReal.coe_zero]

/-- With real entries and indices in range, entry `(r, j)` of the reference's result is `outR` at `(r, j)`. -/
theorem ref_value (xr : S10000x128.Idx → ℝ) (src dst : IVec S640000 32) (vr : S640000.Idx → ℝ) (wr : S2x128.Idx → ℝ)
    (hs : ∀ e, 0 ≤ (src e).toInt ∧ (src e).toInt < 10000) (hd : ∀ e, 0 ≤ (dst e).toInt ∧ (dst e).toInt < 10000)
    (i : S10000x128.Idx) :
    Cert.ReferenceIdeal.Read.val_main_v36 (F := Ideal) (fun a => ((xr a : ℝ) : EReal)) src dst
        (fun a => ((vr a : ℝ) : EReal)) (fun a => ((wr a : ℝ) : EReal)) i
      = ((outR (idxOf src) (idxOf dst) (valsOf vr) (featOf xr) (rowOf wr 0) (rowOf wr 1) (i 0).val (i 1) : ℝ) : EReal) := by
  -- the source indices: the wrap-around of negative words does nothing on words that read non-negative
  have hsrc10 : ∀ e : Fin 640000, Read.val_main_v10 (F := Ideal) src (ix2 e 0) = src (ix1 e) := by
    intro e
    rw [Read.val_main_v10_apply, Read.val_main_v9_apply, Read.val_main_v6_apply, Read.val_main_v5_apply,
      Read.val_main_c_apply]
    have hidx : Read.idx_main_v10 (ix2 e (0 : Fin 1)) = ix1 e := by
      funext a; match a with | ⟨0, _⟩ => rfl
    rw [hidx, slt_zero_of_nonneg _ (hs (ix1 e)).1, select_zero]
  have hsrc29 : ∀ e : Fin 640000, Read.val_main_v29 (F := Ideal) src (ix2 e 0) = src (ix1 e) := by
    intro e
    rw [Read.val_main_v29_apply, Read.val_main_v28_apply, Read.val_main_v25_apply, Read.val_main_v24_apply,
      Read.val_main_c_1_apply]
    have hidx : Read.idx_main_v29 (ix2 e (0 : Fin 1)) = ix1 e := by
      funext a; match a with | ⟨0, _⟩ => rfl
    rw [hidx, slt_zero_of_nonneg _ (hs (ix1 e)).1, select_zero]
  -- the destination indices and the edge weights, broadcast along the columns
  have hdst16 : ∀ e : Fin 640000, Read.val_main_v16 (F := Ideal) dst (ix2 e 0) = dst (ix1 e) := by
    intro e
    rw [Read.val_main_v16_apply]
    exact congrArg dst (funext fun a => match a with | ⟨0, _⟩ => rfl)
  have hdst35 : ∀ e : Fin 640000, Read.val_main_v35 (F := Ideal) dst (ix2 e 0) = dst (ix1 e) := by
    intro e
    rw [Read.val_main_v35_apply]
    exact congrArg dst (funext fun a => match a with | ⟨0, _⟩ => rfl)
  have hV13 : ∀ (e : Fin 640000) (c : Fin 128),
      Read.val_main_v13 (F := Ideal) (fun a => ((vr a : ℝ) : EReal)) (ix2 e c) = ((vr (ix1 e) : ℝ) : EReal) := by
    intro e c
    rw [Read.val_main_v13_apply, Read.val_main_v12_apply]
    exact congrArg (fun a => ((vr a : ℝ) : EReal)) (funext fun a => match a with | ⟨0, _⟩ => rfl)
  have hV32 : ∀ (e : Fin 640000) (c : Fin 128),
      Read.val_main_v32 (F := Ideal) (fun a => ((vr a : ℝ) : EReal)) (ix2 e c) = ((vr (ix1 e) : ℝ) : EReal) := by
    intro e c
    rw [Read.val_main_v32_apply, Read.val_main_v31_apply]
    exact congrArg (fun a => ((vr a : ℝ) : EReal)) (funext fun a => match a with | ⟨0, _⟩ => rfl)
  -- the two rows of column scales, broadcast along the rows
  have hW3 : ∀ (r : Fin 10000) (c : Fin 128),
      Read.val_main_v3 (F := Ideal) (fun a => ((wr a : ℝ) : EReal)) (ix2 r c) = ((rowOf wr 0 c : ℝ) : EReal) := by
    intro r c
    rw [Read.val_main_v3_apply, Read.val_main_v2_apply, Read.val_main_v1_apply, Read.val_main_v0_apply]
    refine congrArg (fun a => ((wr a : ℝ) : EReal)) (funext fun a => ?_)
    match a with
    | ⟨0, _⟩ => rfl
    | ⟨1, _⟩ => exact Fin.ext (Nat.mod_eq_of_lt c.isLt)
  have hW22 : ∀ (r : Fin 10000) (c : Fin 128),
      Read.val_main_v22 (F := Ideal) (fun a => ((wr a : ℝ) : EReal)) (ix2 r c) = ((rowOf wr 1 c : ℝ) : EReal) := by
    intro r c
    rw [Read.val_main_v22_apply, Read.val_main_v21_apply, Read.val_main_v20_apply, Read.val_main_v19_apply]
    refine congrArg (fun a => ((wr a : ℝ) : EReal)) (funext fun a => ?_)
    match a with
    | ⟨0, _⟩ => rfl
    | ⟨1, _⟩ => exact Fin.ext (Nat.mod_eq_of_lt c.isLt)
  -- the zero arrays the sums start from
  have hZ15 : ∀ i, Read.val_main_v15 (F := Ideal) i = 0 := by
    intro i
    rw [Read.val_main_v15_apply, Read.val_main_cst_apply]
    exact Ideal.ofBits_zero_f32
  have hZ34 : ∀ i, Read.val_main_v34 (F := Ideal) i = 0 := by
    intro i
    rw [Read.val_main_v34_apply, Read.val_main_cst_3_apply]
    exact Ideal.ofBits_zero_f32
  -- the features are real
  have hX : ∀ (r : Fin 10000) (c : Fin 128),
      (fun a => ((xr a : ℝ) : EReal)) (ix2 r c) = ((featOf xr r.val c : ℝ) : EReal) := by
    intro r c
    have hf : featOf xr r.val c = xr (ix2 ⟨r.val, r.isLt⟩ c) := dif_pos r.isLt
    rw [hf]
  -- the first layer, then its hyperbolic tangent
  have L1 : ∀ (r : Fin 10000) (c : Fin 128),
      Read.val_main_v17 (F := Ideal) (fun a => ((xr a : ℝ) : EReal)) src dst (fun a => ((vr a : ℝ) : EReal))
          (fun a => ((wr a : ℝ) : EReal)) (ix2 r c)
        = ((layerR (idxOf src) (idxOf dst) (valsOf vr) (featOf xr) (rowOf wr 0) r.val c : ℝ) : EReal) :=
    fun r c => layer_apply (fun a => ((xr a : ℝ) : EReal)) (Read.val_main_v3 (F := Ideal) (fun a => ((wr a : ℝ) : EReal)))
      (Read.val_main_v15 (F := Ideal)) (Read.val_main_v10 (F := Ideal) src) (Read.val_main_v16 (F := Ideal) dst)
      (Read.val_main_v13 (F := Ideal) (fun a => ((vr a : ℝ) : EReal))) src dst vr (featOf xr) (rowOf wr 0)
      hs hd hX hW3 hZ15 hsrc10 hdst16 hV13 r c
  have T1 : ∀ (r : Fin 10000) (c : Fin 128),
      Read.val_main_v18 (F := Ideal) (fun a => ((xr a : ℝ) : EReal)) src dst (fun a => ((vr a : ℝ) : EReal))
          (fun a => ((wr a : ℝ) : EReal)) (ix2 r c)
        = ((Real.tanh (layerR (idxOf src) (idxOf dst) (valsOf vr) (featOf xr) (rowOf wr 0) r.val c) : ℝ) : EReal) := by
    intro r c
    rw [Read.val_main_v18_apply, L1]
    rfl
  -- the second layer
  obtain ⟨r, c, rfl⟩ : ∃ r c, i = ix2 r c := ⟨i 0, i 1, eq_ix2 i⟩
  exact layer_apply (Read.val_main_v18 (F := Ideal) (fun a => ((xr a : ℝ) : EReal)) src dst (fun a => ((vr a : ℝ) : EReal))
      (fun a => ((wr a : ℝ) : EReal))) (Read.val_main_v22 (F := Ideal) (fun a => ((wr a : ℝ) : EReal)))
    (Read.val_main_v34 (F := Ideal)) (Read.val_main_v29 (F := Ideal) src) (Read.val_main_v35 (F := Ideal) dst)
    (Read.val_main_v32 (F := Ideal) (fun a => ((vr a : ℝ) : EReal))) src dst vr
    (fun r' c' => Real.tanh (layerR (idxOf src) (idxOf dst) (valsOf vr) (featOf xr) (rowOf wr 0) r' c')) (rowOf wr 1)
    hs hd T1 hW22 hZ34 hsrc29 hdst35 hV32 r c

end Cert.ReferenceIdeal.RefValue

end
-- ==== Proof.KHost.lean ====
/-
  The arrays the host computes before and between the two matrix products, as functions of the arguments.

  `adjArr`: every edge's flat position `dst * 10112 + src` (a negative position wrapped by the array's length, as array
  indexing does), the edge weights added into a zero array of length 10112² at those positions, the array then read
  as a square matrix. `padArr`: the feature matrix written over the first 10000 rows of a zero matrix of 10112 rows.
  `wRow k`: row `k` of the column scales as a one-row matrix.
-/
import proofs.«404564_j68204080660516_2_alg».proof.KernelIdeal

noncomputable section

namespace Cert.KernelIdeal.HostVal

open Cert.KernelIdeal Idealize.ShloMosaic

variable {F : FTy → Type} [FloatOps F] [Facts]
open Facts₀ Facts

/-- Each edge's flat position in the square of side 10112: `dst * 10112 + src`, in 32-bit arithmetic. -/
def flatIdx (src dst : IVec S640000 32) : IVec S640000 32 :=
  addi (muli dst (broadcastInDim S640000 ![] bcast_S_S640000 (constantI S_ 32 10112#32))) src

/-- The flat positions with a negative one moved up by the array's length, as a column of scatter indices. -/
def flatWrapped (src dst : IVec S640000 32) : IVec S640000x1 32 :=
  broadcastInDim S640000x1 ![0] bcast_S640000_S640000x1_0
    (select (cmpi .slt (flatIdx src dst) (broadcastInDim S640000 ![] bcast_S_S640000 (constantI S_ 32 0#32)))
      (addi (flatIdx src dst) (broadcastInDim S640000 ![] bcast_S_S640000 (constantI S_ 32 102252544#32)))
      (flatIdx src dst))

/-- The dense adjacency matrix: the edge weights added at their flat positions into zeros, read as a square. -/
def adjArr (src dst : IVec S640000 32) (vals : FVec F S640000 .f32) : FVec F S10112x10112 .f32 :=
  shapeCast S10112x10112
    (Host.scatterAdd scatter_S102252544_S640000x1_S640000_n_0_0_1
      (broadcastInDim S102252544 ![] bcast_S_S102252544 (constant (F := F) S_ .f32 0x00000000#32))
      (flatWrapped src dst) vals)
    shapeCasts_S102252544_S10112x10112

/-- The features over the first 10000 rows of a zero matrix of 10112 rows. -/
def padArr (x : FVec F S10000x128 .f32) : FVec F S10112x128 .f32 :=
  Host.scatter scatter_S10112x128_S1_S10000x128_01_n_0_0 (fun _ b => b)
    (broadcastInDim S10112x128 ![] bcast_S_S10112x128 (constant (F := F) S_ .f32 0x00000000#32))
    (broadcastInDim S1 ![] bcast_S_S1 (constantI S_ 32 0#32)) x

/-- Row 0 of the column scales as a one-row matrix. -/
def wRow0 (W : FVec F S2x128 .f32) : FVec F S1x128 .f32 :=
  shapeCast S1x128 (shapeCast S128 (extractStridedSlice S1x128 ![0, 0] W slices_S2x128_S1x128_0_0) shapeCasts_S1x128_S128)
    shapeCasts_S128_S1x128

/-- Row 1 of the column scales as a one-row matrix. -/
def wRow1 (W : FVec F S2x128 .f32) : FVec F S1x128 .f32 :=
  shapeCast S1x128 (shapeCast S128 (extractStridedSlice S1x128 ![1, 0] W slices_S2x128_S1x128_1_0) shapeCasts_S1x128_S128)
    shapeCasts_S128_S1x128

end Cert.KernelIdeal.HostVal

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.PayValue.lean ====
/-
  What one grid step of each matrix-product kernel stores, entry by entry: the row of the adjacency block times the
  column of the features, summed over the 10112 shared coordinates, scaled by the column's weight — and, in the first
  kernel, passed through the hyperbolic tangent.
-/
import proofs.«404564_j68204080660516_2_alg».proof.Proof.Gen.KernelIdeal.Skeleton
import proofs.«404564_j68204080660516_2_alg».proof.Proof.LibOneAxisContraction
import Idealize.ShloMosaic.PureOps.Ideal.Laws
import Idealize.ShloMosaic.Lib.Pipeline.Value
import Idealize.ShloMosaic.Lib.ValueLayout

noncomputable section

namespace Cert.KernelIdeal.PayValue

open Cert.KernelIdeal Cert.KernelIdeal.Gen Idealize.ShloMosaic Idealize.ShloMosaic.ValueIdx Idealize.ShloMosaic.TcCoe
open scoped BigOperators

/-! ## The matrix product's dimension numbers, axis by axis

The product contracts the left operand's axis 1 against the right operand's axis 0: one contracted axis, of extent 10112.
At a result index `j` and a contraction position `k` the left operand is read at row `j 0`, column `k`; the right
operand at row `k`, column `j 1`. -/

/-- The dimension numbers of the two kernels' matrix product. -/
private abbrev mm : DotDims S128x10112 S10112x128 S128x128 := dot_S128x10112_S10112x128_S128x128_1_0_0_1_n_n

/-- One axis is contracted … -/
private theorem mm_rank : mm.contr.rank = 1 := rfl

/-- … and its extent is 10112. -/
private theorem mm_size : mm.contr.size ⟨0, by rw [mm_rank]; exact Nat.one_pos⟩ = 10112 := rfl

/-- The left operand's row is the result's row. -/
private theorem mm_lhs_axis0 (j : S128x128.Idx) (k : mm.contr.Idx) :
    (mm.lhsIdx j k ⟨0, by decide⟩).val = (j ⟨0, by decide⟩).val := rfl

/-- The left operand's column is the contracted coordinate. -/
private theorem mm_lhs_axis1 (j : S128x128.Idx) (k : mm.contr.Idx) :
    (mm.lhsIdx j k ⟨1, by decide⟩).val = (k ⟨0, by rw [mm_rank]; exact Nat.one_pos⟩).val :=
  mm.lhsIdx_val_of_single (cl := ⟨1, by decide⟩) rfl j k

/-- The right operand's row is the contracted coordinate. -/
private theorem mm_rhs_axis0 (j : S128x128.Idx) (k : mm.contr.Idx) :
    (mm.rhsIdx j k ⟨0, by decide⟩).val = (k ⟨0, by rw [mm_rank]; exact Nat.one_pos⟩).val :=
  mm.rhsIdx_val_of_single (cr := ⟨0, by decide⟩) rfl j k

/-- The right operand's column is the result's column. -/
private theorem mm_rhs_axis1 (j : S128x128.Idx) (k : mm.contr.Idx) :
    (mm.rhsIdx j k ⟨1, by decide⟩).val = (j ⟨1, by decide⟩).val := rfl

/-- The left operand's index at result entry `(p, q)` and contracted coordinate `c` is `(p, c)`. -/
private theorem mm_lhsIdx (p q : Fin 128) (c : Fin 10112) :
    mm.lhsIdx (ix2 p q) ((contrEquiv1 mm 10112 mm_rank mm_size).symm c) = ix2 p c := by
  funext a
  match a with
  | ⟨0, _⟩ => exact Fin.ext (mm_lhs_axis0 (ix2 p q) _)
  | ⟨1, _⟩ => exact Fin.ext ((mm_lhs_axis1 (ix2 p q) _).trans (contrEquiv1_symm_val mm 10112 mm_rank mm_size c))

/-- The right operand's index at result entry `(p, q)` and contracted coordinate `c` is `(c, q)`. -/
private theorem mm_rhsIdx (p q : Fin 128) (c : Fin 10112) :
    mm.rhsIdx (ix2 p q) ((contrEquiv1 mm 10112 mm_rank mm_size).symm c) = ix2 c q := by
  funext a
  match a with
  | ⟨0, _⟩ => exact Fin.ext ((mm_rhs_axis0 (ix2 p q) _).trans (contrEquiv1_symm_val mm 10112 mm_rank mm_size c))
  | ⟨1, _⟩ => exact Fin.ext (mm_rhs_axis1 (ix2 p q) _)

/-! ## The scaled product at an entry -/

/-- The product into the zero accumulator, times the weight row broadcast over the 128 rows, at `(p, q)`: the sum over
    the contracted coordinate of the operands' products, times the weight of column `q`. -/
private theorem scaled_apply (x0 : FVec Ideal S128x10112 .f32) (x1 : FVec Ideal S10112x128 .f32) (x2 : FVec Ideal S1x128 .f32)
    (p q : Fin 128) :
    mulf (matmul dot_S128x10112_S10112x128_S128x128_1_0_0_1_n_n (some .fp32) x0 x1 (constant S128x128 .f32 0x00000000#32))
        (broadcastTo S128x128 x2 broadcasts_S1x128_S128x128) (ix2 p q)
      = (∑ k : Fin 10112, x0 (ix2 p k) * x1 (ix2 k q)) * x2 (ix2 (0 : Fin 1) q) := by
  rw [mulf_apply,
    Cert.Dots.matmul_zero_apply_of mm 10112 mm_rank mm_size (some .fp32) x0 x1 (ix2 p q) (fun c => ix2 p c) (fun c => ix2 c q)
      (mm_lhsIdx p q) (mm_rhsIdx p q),
    broadcastTo_1b_ab_apply]

/-- The first kernel's stored block at `(p, q)`. -/
theorem k0_pay1_apply (x0 : FVec Ideal S128x10112 .f32) (x1 : FVec Ideal S10112x128 .f32) (x2 : FVec Ideal S1x128 .f32)
    (p q : Fin 128) :
    k0_pay1 (F := Ideal) x0 x1 x2 (ix2 p q)
      = Ideal.tanh ((∑ k : Fin 10112, x0 (ix2 p k) * x1 (ix2 k q)) * x2 (ix2 (0 : Fin 1) q)) := by
  unfold k0_pay1
  simp only [shapeCast_self]
  exact congrArg Ideal.tanh (scaled_apply x0 x1 x2 p q)

/-- The second kernel's stored block at `(p, q)`. -/
theorem k1_pay1_apply (x0 : FVec Ideal S128x10112 .f32) (x1 : FVec Ideal S10112x128 .f32) (x2 : FVec Ideal S1x128 .f32)
    (p q : Fin 128) :
    k1_pay1 (F := Ideal) x0 x1 x2 (ix2 p q)
      = (∑ k : Fin 10112, x0 (ix2 p k) * x1 (ix2 k q)) * x2 (ix2 (0 : Fin 1) q) := by
  unfold k1_pay1
  simp only [shapeCast_self]
  exact scaled_apply x0 x1 x2 p q

end Cert.KernelIdeal.PayValue

end
-- ==== Proof.KRegion.lean ====
/-
  Each of the two matrix-product regions, read as one whole-array function.

  A region runs 79 grid steps; step `t` loads rows `128 t … 128 t + 127` of the adjacency matrix, the whole feature
  matrix and the one-row scale, and stores rows `128 t …` of the output. Since a step's stored block at `(p, q)` is
  `act ((∑ k, x0 (p, k) * x1 (k, q)) * x2 (0, q))`, the blocks are the restrictions of ONE function of the three arrays,
      layerFn act A H w (r, q) = act ((∑ k < 10112, A (r, k) * H (k, q)) * w (0, q)),
  and the 79 row blocks tile the 10112 rows: the output array ends holding that function.
-/
import proofs.«404564_j68204080660516_2_alg».proof.Proof.Gen.KernelIdeal.Frame
import proofs.«404564_j68204080660516_2_alg».proof.Proof.PayValue
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- One dense layer as a function of whole arrays: adjacency times features, scaled by the column's weight, then `act`. -/
def layerFn (act : EReal → EReal) (A : FVec Ideal S10112x10112 .f32) (H : FVec Ideal S10112x128 .f32)
    (w : FVec Ideal S1x128 .f32) : FVec Ideal S10112x128 .f32 :=
  fun i => act ((∑ k : Fin 10112, A (ix2 ⟨(i 0).val, idx2_lt0 i⟩ k) * H (ix2 k ⟨(i 1).val, idx2_lt1 i⟩))
    * w (ix2 (0 : Fin 1) ⟨(i 1).val, idx2_lt1 i⟩))

theorem hz : (![0, 0] : Fin 2 → Nat) = fun _ => 0 := funext fun a => by fin_cases a <;> rfl

/-- The adjacency window of either region never writes back. -/
theorem noflush0_0 : ∀ t : Fin cfg0.N, (cfg0.win 0).flush t = false := (by decide +kernel : ∀ t : Fin grid0.N, _)
theorem noflush1_0 : ∀ t : Fin cfg1.N, (cfg1.win 0).flush t = false := (by decide +kernel : ∀ t : Fin grid1.N, _)

variable (V : (c : Dev nD) → (b : Ref sig .tc) → Buf (Elt Ideal) ((c : Thread nD τ).loc b))

/-! ## Region 0 -/

/-- The printed index maps over the 79 grid points: the adjacency window and the output window take row block `t`,
    the feature window and the scale window stay at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One grid step over blocks that are rows `128 b …` of the adjacency, the whole features and the whole scale row:
    the stored block is rows `128 b …` of the layer. -/
theorem block0 (A : FVec Ideal S10112x10112 .f32) (H : FVec Ideal S10112x128 .f32) (w : FVec Ideal S1x128 .f32)
    (x0 : FVec Ideal S128x10112 .f32) (x1 : FVec Ideal S10112x128 .f32) (x2 : FVec Ideal S1x128 .f32)
    (b : ℕ) (hb : b < 79)
    (h0 : ∀ (p : Fin 128) (k : Fin 10112), x0 (ix2 p k) = A (ix2 ⟨b * 128 + p.val, by have := p.isLt; omega⟩ k))
    (h1 : ∀ (k : Fin 10112) (q : Fin 128), x1 (ix2 k q) = H (ix2 k q))
    (h2 : ∀ q : Fin 128, x2 (ix2 (0 : Fin 1) q) = w (ix2 (0 : Fin 1) q)) (p q : Fin 128) :
    k0_pay1 (F := Ideal) x0 x1 x2 (ix2 p q)
      = layerFn Ideal.tanh A H w (ix2 ⟨b * 128 + p.val, by have := p.isLt; omega⟩ q) := by
  rw [PayValue.k0_pay1_apply]
  unfold layerFn
  simp only [h0, h1, h2]

/-- What grid point `t` writes back is block `t` of the layer of the arrays as the region finds them. -/
theorem flushed0_eq (c : Dev nD) (t : Fin cfg0.N) :
    (dat0 V c).flushed 3 t = ((cfg0.win 3).blk t).view.read (Elt Ideal)
      (layerFn Ideal.tanh (V c main_v11) (V c main_v14) (V c main_v17)) := by
  show (cfg0.win 3).cut (grid0.coords t) ((dat0 V c).after 3 t) = _
  rw [after0_3]
  unfold out0_3
  rw [View.canon_unit_zero hz]
  simp only [View.ld_unit_zero (S := S128x10112) hz, View.ld_unit_zero (S := S10112x128) hz, View.ld_unit_zero (S := S1x128) hz]
  obtain ⟨e00, e01, e10, e11, e20, e21, e30, e31⟩ := idx0 t
  have ht : t.val < 79 := lt_of_lt_of_eq t.isLt N_0
  refine funext fun (j : S128x128.Idx) => ?_
  obtain ⟨p, q, rfl⟩ : ∃ (p : Fin 128) (q : Fin 128), j = ix2 p q := ⟨j 0, j 1, eq_ix2 j⟩
  refine (block0 (V c main_v11) (V c main_v14) (V c main_v17) (iblk0 V c 0 t) (iblk0 V c 1 t) (iblk0 V c 2 t)
    t.val ht ?_ ?_ ?_ p q).trans ?_
  · intro p k
    show V c main_v11 (((cfg0.win 0).blk t).view.emb (ix2 p k)) = _
    refine congrArg (V c main_v11) ?_
    funext a; apply Fin.ext
    match a with
    | ⟨0, _⟩ => show win0_0.index t (0 : Fin 2) * 128 + 1 * p.val = t.val * 128 + p.val; omega
    | ⟨1, _⟩ => show win0_0.index t (1 : Fin 2) * 10112 + 1 * k.val = k.val; omega
  · intro k q
    show V c main_v14 (((cfg0.win 1).blk t).view.emb (ix2 k q)) = _
    refine congrArg (V c main_v14) ?_
    funext a; apply Fin.ext
    match a with
    | ⟨0, _⟩ => show win0_1.index t (0 : Fin 2) * 10112 + 1 * k.val = k.val; omega
    | ⟨1, _⟩ => show win0_1.index t (1 : Fin 2) * 128 + 1 * q.val = q.val; omega
  · intro q
    show V c main_v17 (((cfg0.win 2).blk t).view.emb (ix2 (0 : Fin 1) q)) = _
    refine congrArg (V c main_v17) ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega
  · show _ = layerFn Ideal.tanh (V c main_v11) (V c main_v14) (V c main_v17) (((cfg0.win 3).blk t).view.emb (ix2 p q))
    refine congrArg (layerFn Ideal.tanh (V c main_v11) (V c main_v14) (V c main_v17)) ?_
    funext a; apply Fin.ext
    match a with
    | ⟨0, _⟩ => show t.val * 128 + p.val = win0_3.index t (0 : Fin 2) * 128 + 1 * p.val; omega
    | ⟨1, _⟩ => show q.val = win0_3.index t (1 : Fin 2) * 128 + 1 * q.val; omega

/-- An index of the output array is in point `t`'s block iff each coordinate is in the block's range on its axis. -/
theorem mem_blk0 (t : Fin cfg0.N) (i : S10112x128.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v18).slice (win0_3.rect t)).set ↔ _
  rw [View.set_slice_whole, Rect.mem_set_unit]
  exact Iff.rfl

/-- Row `r` of the output array lies in the block of grid point `r / 128`. -/
theorem cover0 (i : S10112x128.Idx) :
    ∃ t : Fin cfg0.N, (cfg0.win 3).flush t = true ∧ i ∈ ((cfg0.win 3).blk t).view.set := by
  have hi0 : (i 0).val < 10112 := (i 0).isLt
  have hi1 : (i 1).val < 128 := (i 1).isLt
  have hN : (i 0).val / 128 < cfg0.N := by rw [show cfg0.N = 79 from N_0]; omega
  obtain ⟨-, -, -, -, -, -, e30, e31⟩ := idx0 ⟨(i 0).val / 128, hN⟩
  have e30' : win0_3.index ⟨(i 0).val / 128, hN⟩ (0 : Fin 2) = (i 0).val / 128 := e30
  refine ⟨⟨(i 0).val / 128, hN⟩, flush0_3 _, ?_⟩
  rw [mem_blk0]
  intro a
  match a with
  | ⟨0, _⟩ =>
    show win0_3.index ⟨(i 0).val / 128, hN⟩ (0 : Fin 2) * 128 ≤ (i 0).val
      ∧ (i 0).val < win0_3.index ⟨(i 0).val / 128, hN⟩ (0 : Fin 2) * 128 + 128
    omega
  | ⟨1, _⟩ =>
    show win0_3.index ⟨(i 0).val / 128, hN⟩ (1 : Fin 2) * 128 ≤ (i 1).val
      ∧ (i 1).val < win0_3.index ⟨(i 0).val / 128, hN⟩ (1 : Fin 2) * 128 + 128
    omega

/-- The output array after the region is the layer of the three arrays the region was entered with. -/
theorem final0 (c : Dev nD) :
    (dat0 V c).arrAt 3 cfg0.N = layerFn Ideal.tanh (V c main_v11) (V c main_v14) (V c main_v17) :=
  (dat0 V c).arrAt_eq_of_cover 3 _ (fun t _ => flushed0_eq V c t) (fun i => cover0 i)

/-- The adjacency window only reads: its array is after the region what it was at entry. -/
theorem kept0_adj (c : Dev nD) : (dat0 V c).arrAt 0 cfg0.N = V c main_v11 :=
  funext fun i => ((dat0 V c).arrAt_apply_of_forall_not_mem 0 cfg0.N i
    (fun t _ hf => absurd hf (by rw [noflush0_0 t]; decide))).trans (congrFun (A_eq0 V c 0) i)

/-! ## Region 1 -/

/-- The printed index maps over the 79 grid points: the adjacency window and the output window take row block `t`,
    the feature window and the scale window stay at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One grid step over blocks that are rows `128 b …` of the adjacency, the whole features and the whole scale row:
    the stored block is rows `128 b …` of the layer. -/
theorem block1 (A : FVec Ideal S10112x10112 .f32) (H : FVec Ideal S10112x128 .f32) (w : FVec Ideal S1x128 .f32)
    (x0 : FVec Ideal S128x10112 .f32) (x1 : FVec Ideal S10112x128 .f32) (x2 : FVec Ideal S1x128 .f32)
    (b : ℕ) (hb : b < 79)
    (h0 : ∀ (p : Fin 128) (k : Fin 10112), x0 (ix2 p k) = A (ix2 ⟨b * 128 + p.val, by have := p.isLt; omega⟩ k))
    (h1 : ∀ (k : Fin 10112) (q : Fin 128), x1 (ix2 k q) = H (ix2 k q))
    (h2 : ∀ q : Fin 128, x2 (ix2 (0 : Fin 1) q) = w (ix2 (0 : Fin 1) q)) (p q : Fin 128) :
    k1_pay1 (F := Ideal) x0 x1 x2 (ix2 p q)
      = layerFn id A H w (ix2 ⟨b * 128 + p.val, by have := p.isLt; omega⟩ q) := by
  rw [PayValue.k1_pay1_apply]
  unfold layerFn
  simp only [h0, h1, h2]
  rfl

/-- What grid point `t` writes back is block `t` of the layer of the arrays as the region finds them. -/
theorem flushed1_eq (c : Dev nD) (t : Fin cfg1.N) :
    (dat1 V c).flushed 3 t = ((cfg1.win 3).blk t).view.read (Elt Ideal)
      (layerFn id (V c main_v11) (V c main_v18) (V c main_v21)) := by
  show (cfg1.win 3).cut (grid1.coords t) ((dat1 V c).after 3 t) = _
  rw [after1_3]
  unfold out1_3
  rw [View.canon_unit_zero hz]
  simp only [View.ld_unit_zero (S := S128x10112) hz, View.ld_unit_zero (S := S10112x128) hz, View.ld_unit_zero (S := S1x128) hz]
  obtain ⟨e00, e01, e10, e11, e20, e21, e30, e31⟩ := idx1 t
  have ht : t.val < 79 := lt_of_lt_of_eq t.isLt N_1
  refine funext fun (j : S128x128.Idx) => ?_
  obtain ⟨p, q, rfl⟩ : ∃ (p : Fin 128) (q : Fin 128), j = ix2 p q := ⟨j 0, j 1, eq_ix2 j⟩
  refine (block1 (V c main_v11) (V c main_v18) (V c main_v21) (iblk1 V c 0 t) (iblk1 V c 1 t) (iblk1 V c 2 t)
    t.val ht ?_ ?_ ?_ p q).trans ?_
  · intro p k
    show V c main_v11 (((cfg1.win 0).blk t).view.emb (ix2 p k)) = _
    refine congrArg (V c main_v11) ?_
    funext a; apply Fin.ext
    match a with
    | ⟨0, _⟩ => show win1_0.index t (0 : Fin 2) * 128 + 1 * p.val = t.val * 128 + p.val; omega
    | ⟨1, _⟩ => show win1_0.index t (1 : Fin 2) * 10112 + 1 * k.val = k.val; omega
  · intro k q
    show V c main_v18 (((cfg1.win 1).blk t).view.emb (ix2 k q)) = _
    refine congrArg (V c main_v18) ?_
    funext a; apply Fin.ext
    match a with
    | ⟨0, _⟩ => show win1_1.index t (0 : Fin 2) * 10112 + 1 * k.val = k.val; omega
    | ⟨1, _⟩ => show win1_1.index t (1 : Fin 2) * 128 + 1 * q.val = q.val; omega
  · intro q
    show V c main_v21 (((cfg1.win 2).blk t).view.emb (ix2 (0 : Fin 1) q)) = _
    refine congrArg (V c main_v21) ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega
  · show _ = layerFn id (V c main_v11) (V c main_v18) (V c main_v21) (((cfg1.win 3).blk t).view.emb (ix2 p q))
    refine congrArg (layerFn id (V c main_v11) (V c main_v18) (V c main_v21)) ?_
    funext a; apply Fin.ext
    match a with
    | ⟨0, _⟩ => show t.val * 128 + p.val = win1_3.index t (0 : Fin 2) * 128 + 1 * p.val; omega
    | ⟨1, _⟩ => show q.val = win1_3.index t (1 : Fin 2) * 128 + 1 * q.val; omega

/-- An index of the output array is in point `t`'s block iff each coordinate is in the block's range on its axis. -/
theorem mem_blk1 (t : Fin cfg1.N) (i : S10112x128.Idx) :
    i ∈ ((cfg1.win 3).blk t).view.set ↔ ∀ a : Fin 2, win1_3.index t a * S128x128.size a ≤ (i a).val
      ∧ (i a).val < win1_3.index t a * S128x128.size a + S128x128.size a := by
  show i ∈ ((View.whole main_v22).slice (win1_3.rect t)).set ↔ _
  rw [View.set_slice_whole, Rect.mem_set_unit]
  exact Iff.rfl

/-- Row `r` of the output array lies in the block of grid point `r / 128`. -/
theorem cover1 (i : S10112x128.Idx) :
    ∃ t : Fin cfg1.N, (cfg1.win 3).flush t = true ∧ i ∈ ((cfg1.win 3).blk t).view.set := by
  have hi0 : (i 0).val < 10112 := (i 0).isLt
  have hi1 : (i 1).val < 128 := (i 1).isLt
  have hN : (i 0).val / 128 < cfg1.N := by rw [show cfg1.N = 79 from N_1]; omega
  obtain ⟨-, -, -, -, -, -, e30, e31⟩ := idx1 ⟨(i 0).val / 128, hN⟩
  have e30' : win1_3.index ⟨(i 0).val / 128, hN⟩ (0 : Fin 2) = (i 0).val / 128 := e30
  refine ⟨⟨(i 0).val / 128, hN⟩, flush1_3 _, ?_⟩
  rw [mem_blk1]
  intro a
  match a with
  | ⟨0, _⟩ =>
    show win1_3.index ⟨(i 0).val / 128, hN⟩ (0 : Fin 2) * 128 ≤ (i 0).val
      ∧ (i 0).val < win1_3.index ⟨(i 0).val / 128, hN⟩ (0 : Fin 2) * 128 + 128
    omega
  | ⟨1, _⟩ =>
    show win1_3.index ⟨(i 0).val / 128, hN⟩ (1 : Fin 2) * 128 ≤ (i 1).val
      ∧ (i 1).val < win1_3.index ⟨(i 0).val / 128, hN⟩ (1 : Fin 2) * 128 + 128
    omega

/-- The output array after the region is the layer of the three arrays the region was entered with. -/
theorem final1 (c : Dev nD) :
    (dat1 V c).arrAt 3 cfg1.N = layerFn id (V c main_v11) (V c main_v18) (V c main_v21) :=
  (dat1 V c).arrAt_eq_of_cover 3 _ (fun t _ => flushed1_eq V c t) (fun i => cover1 i)

/-- The adjacency window only reads: its array is after the region what it was at entry. -/
theorem kept1_adj (c : Dev nD) : (dat1 V c).arrAt 0 cfg1.N = V c main_v11 :=
  funext fun i => ((dat1 V c).arrAt_apply_of_forall_not_mem 0 cfg1.N i
    (fun t _ hf => absurd hf (by rw [noflush1_0 t]; decide))).trans (congrFun (A_eq1 V c 0) i)

end Cert.KernelIdeal.Region

end
-- ==== Proof.AdjValue.lean ====
/-
  The dense adjacency matrix the host builds, entry by entry, is `adj` over the reals.
-/
import proofs.«404564_j68204080660516_2_alg».proof.Proof.KHost
import proofs.«404564_j68204080660516_2_alg».proof.Proof.Gen.KernelIdeal
import proofs.«404564_j68204080660516_2_alg».proof.Proof.Spec
import Idealize.ShloMosaic.PureOps.Ideal.Laws
import Idealize.ShloMosaic.Lib.Pipeline.Value

noncomputable section

namespace Cert.KernelIdeal.HostVal

open Cert.KernelIdeal Cert.KernelIdeal.Gen Idealize.ShloMosaic Idealize.ShloMosaic.ValueIdx Cert.Spmm
open scoped BigOperators

/-- For two words in `[0, 10000)`, `b * 10112 + a` in 32-bit arithmetic does not wrap. -/
private theorem flat_toInt (a b : BitVec 32) (ha : 0 ≤ a.toInt ∧ a.toInt < 10000) (hb : 0 ≤ b.toInt ∧ b.toInt < 10000) :
    (b * 10112#32 + a).toInt = b.toInt * 10112 + a.toInt := by
  have h10 : (10112#32).toInt = 10112 := by decide
  have h32 : (2 : ℕ) ^ 32 = 4294967296 := by norm_num
  rw [BitVec.toInt_add, BitVec.toInt_mul, h10, h32]
  rw [Int.bmod_eq_of_le (n := b.toInt * 10112) (by omega) (by omega), Int.bmod_eq_of_le (by omega) (by omega)]

/-- The flat position of an edge, as an integer. -/
private theorem flatIdx_toInt (src dst : IVec S640000 32)
    (hs : ∀ e, 0 ≤ (src e).toInt ∧ (src e).toInt < 10000) (hd : ∀ e, 0 ≤ (dst e).toInt ∧ (dst e).toInt < 10000)
    (e : S640000.Idx) : (flatIdx src dst e).toInt = (dst e).toInt * 10112 + (src e).toInt :=
  flat_toInt (src e) (dst e) (hs e) (hd e)

/-- The flat position is not negative, so the wrapped column keeps it. -/
private theorem flatWrapped_apply (src dst : IVec S640000 32)
    (hs : ∀ e, 0 ≤ (src e).toInt ∧ (src e).toInt < 10000) (hd : ∀ e, 0 ≤ (dst e).toInt ∧ (dst e).toInt < 10000)
    (e : Fin 640000) (z : Fin 1) : flatWrapped src dst (ix2 e z) = flatIdx src dst (ix1 e) := by
  unfold flatWrapped
  refine (broadcastInDim_apply _ _ _ (ix2 e z) (ix1 e) ?_).trans ?_
  · intro a
    match a with
    | ⟨0, _⟩ => rfl
  rw [select_apply]
  have h := flatIdx_toInt src dst hs hd (ix1 e)
  have h1 := hs (ix1 e)
  have h2 := hd (ix1 e)
  have hc : cmpi .slt (flatIdx src dst) (broadcastInDim S640000 ![] bcast_S_S640000 (constantI S_ 32 0#32)) (ix1 e) = 0#1 := by
    show BitVec.ofBool ((flatIdx src dst (ix1 e)).slt 0#32) = 0#1
    have : (flatIdx src dst (ix1 e)).slt 0#32 = false := by
      rw [BitVec.slt, decide_eq_false_iff_not, h]
      have : (0#32).toInt = 0 := by decide
      omega
    rw [this]; rfl
  rw [hc]
  rfl

/-- A rank-one index reads its one coordinate on its one axis. -/
private theorem ix1_val (e : Fin 640000) (x : Fin S640000.rank) : ((ix1 e : S640000.Idx) x).val = e.val := by
  match x with
  | ⟨0, _⟩ => rfl

/-- The start of an update's window: the edge's wrapped flat position, read signed. -/
private theorem scat_start (idx : IVec S640000x1 32) (e : Fin 640000) (a : Fin S102252544.rank) :
    scatter_S102252544_S640000x1_S640000_n_0_0_1.start (ix1 e) idx a = (idx (ix2 e (0 : Fin 1))).toInt := by
  have ha : a = (0 : Fin 1) := Subsingleton.elim _ _
  subst ha
  unfold ScatterDims.start
  rw [dif_pos (by decide)]
  refine congrArg (fun q => (idx q).toInt) ?_
  funext b
  match b with
  | ⟨1, _⟩ => exact Subsingleton.elim (α := Fin 1) _ _
  | ⟨0, _⟩ =>
    refine Fin.ext ?_
    unfold ScatterDims.siIdx
    split
    · rename_i hb
      exact absurd hb (show ¬ (0 : ℕ) = 1 by decide)
    · exact ix1_val e _

/-- No window axis: the window coordinate is zero. -/
private theorem scat_window (e : Fin 640000) (a : Fin S102252544.rank) :
    scatter_S102252544_S640000x1_S640000_n_0_0_1.window (ix1 e : S640000.Idx) a = 0 := by
  have ha : a = (0 : Fin 1) := Subsingleton.elim _ _
  subst ha
  unfold ScatterDims.window
  rw [dif_neg (by decide)]

/-- An update lands at flat position `p` exactly when its wrapped index, read signed, is `p`. -/
private theorem scat_resultIdx (idx : IVec S640000x1 32) (e : Fin 640000) (p : Fin 102252544) :
    scatter_S102252544_S640000x1_S640000_n_0_0_1.resultIdx? (ix1 e) idx = some (ix1 p)
      ↔ (idx (ix2 e (0 : Fin 1))).toInt = (p.val : ℤ) := by
  unfold ScatterDims.resultIdx?
  have hp : p.val < 102252544 := p.isLt
  by_cases h : ∀ a, 0 ≤ scatter_S102252544_S640000x1_S640000_n_0_0_1.start (ix1 e) idx a
        + scatter_S102252544_S640000x1_S640000_n_0_0_1.window (ix1 e : S640000.Idx) a
      ∧ scatter_S102252544_S640000x1_S640000_n_0_0_1.start (ix1 e) idx a
        + scatter_S102252544_S640000x1_S640000_n_0_0_1.window (ix1 e : S640000.Idx) a < S102252544.size a
  · rw [dif_pos h]
    have h0 := h (0 : Fin 1)
    rw [scat_start, scat_window] at h0
    constructor
    · intro he
      have h1 := congrArg (fun q : S102252544.Idx => (q (0 : Fin 1)).val) (Option.some.inj he)
      have h2 : ((scatter_S102252544_S640000x1_S640000_n_0_0_1.start (ix1 e) idx (0 : Fin 1)
        + scatter_S102252544_S640000x1_S640000_n_0_0_1.window (ix1 e : S640000.Idx) (0 : Fin 1)).toNat) = p.val := h1
      rw [scat_start, scat_window] at h2
      omega
    · intro he
      refine congrArg some (funext fun a => ?_)
      have ha : a = (0 : Fin 1) := Subsingleton.elim _ _
      subst ha
      refine Fin.ext ?_
      show ((scatter_S102252544_S640000x1_S640000_n_0_0_1.start (ix1 e) idx (0 : Fin 1)
        + scatter_S102252544_S640000x1_S640000_n_0_0_1.window (ix1 e : S640000.Idx) (0 : Fin 1)).toNat) = p.val
      rw [scat_start, scat_window]
      omega
  · rw [dif_neg h]
    constructor
    · intro he; exact absurd he (by simp)
    · intro he
      exfalso
      apply h
      intro a
      have ha : a = (0 : Fin 1) := Subsingleton.elim _ _
      subst ha
      rw [scat_start, scat_window]
      show 0 ≤ _ + ((0 : ℕ) : ℤ) ∧ _ + ((0 : ℕ) : ℤ) < ((102252544 : ℕ) : ℤ)
      omega

/-- Edge numbers are the indices of the edge arrays. -/
private def edgeEquiv : Fin 640000 ≃ S640000.Idx where
  toFun e := ix1 e
  invFun j := (j 0 : Fin 640000)
  left_inv _ := rfl
  right_inv j := (eq_ix1 j).symm

/-- The embedding of the reals in the extended reals commutes with finite sums. -/
private theorem coe_sum_ereal {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- With real weights and indices in range, entry `(r, c)` of the adjacency array is `adj` at `(r, c)`. -/
theorem adjArr_apply (src dst : IVec S640000 32) (vr : S640000.Idx → ℝ)
    (hs : ∀ e, 0 ≤ (src e).toInt ∧ (src e).toInt < 10000) (hd : ∀ e, 0 ≤ (dst e).toInt ∧ (dst e).toInt < 10000)
    (r c : Fin 10112) :
    adjArr (F := Ideal) src dst (fun a => ((vr a : ℝ) : EReal)) (ix2 r c)
      = ((adj (idxOf src) (idxOf dst) (valsOf vr) r.val c.val : ℝ) : EReal) := by
  have hpos : r.val * 10112 + c.val < 102252544 := by have := r.isLt; have := c.isLt; omega
  unfold adjArr
  rw [shapeCast_apply _ _ (ix2 r c) (ix1 (⟨r.val * 10112 + c.val, hpos⟩ : Fin 102252544)) (by
    rw [Shape.rowMajor_val_one, Shape.rowMajor_val_two]; rfl)]
  show Ideal.hostScatterAdd _ _ _ _ _ = _
  unfold Ideal.hostScatterAdd
  have hz : (broadcastInDim S102252544 ![] bcast_S_S102252544 (constant (F := Ideal) S_ .f32 0x00000000#32))
      (ix1 (⟨r.val * 10112 + c.val, hpos⟩ : Fin 102252544)) = 0 := Ideal.ofBits_zero_f32
  rw [hz, zero_add, Finset.sum_filter, ← Equiv.sum_comp edgeEquiv]
  unfold adj
  rw [coe_sum_ereal]
  refine Finset.sum_congr rfl fun e _ => ?_
  show (if scatter_S102252544_S640000x1_S640000_n_0_0_1.resultIdx? (ix1 e) (flatWrapped src dst)
        = some (ix1 (⟨r.val * 10112 + c.val, hpos⟩ : Fin 102252544)) then ((vr (ix1 e) : ℝ) : EReal) else 0) = _
  have hiff := scat_resultIdx (flatWrapped src dst) e ⟨r.val * 10112 + c.val, hpos⟩
  rw [flatWrapped_apply src dst hs hd, flatIdx_toInt src dst hs hd] at hiff
  have h1 := hs (ix1 e)
  have h2 := hd (ix1 e)
  by_cases hc : idxOf dst e * 10112 + idxOf src e = r.val * 10112 + c.val
  · rw [if_pos hc, if_pos (hiff.2 (by unfold idxOf at hc; show _ = ((r.val * 10112 + c.val : ℕ) : ℤ); omega))]
    rfl
  · rw [if_neg hc, if_neg (fun h => hc (by
      have h' := hiff.1 h
      have h'' : (dst (ix1 e)).toInt * 10112 + (src (ix1 e)).toInt = ((r.val * 10112 + c.val : ℕ) : ℤ) := h'
      unfold idxOf; omega))]
    rfl

end Cert.KernelIdeal.HostVal

end
-- ==== Proof.PadValue.lean ====
/-
  The zero-padded feature matrix the host builds, entry by entry: the features on rows below 10000, zero from there on.
-/
import proofs.«404564_j68204080660516_2_alg».proof.Proof.KHost
import proofs.«404564_j68204080660516_2_alg».proof.Proof.Gen.KernelIdeal
import Idealize.ShloMosaic.PureOps.Ideal.Laws
import Idealize.ShloMosaic.Lib.ValueIdx

noncomputable section

/-! ## Reading a fold of overwrites at one entry -/

namespace Cert.PadScatterFold

open Idealize.ShloMosaic

universe u v w

variable {κ : Type u} {ι : Type v} {α : Type w}

/-- A left fold of steps none of which writes entry `i` leaves entry `i` as it was. -/
theorem foldl_miss (ridx : κ → Option ι) (step : (ι → α) → κ → (ι → α)) (i : ι)
    (hmiss : ∀ r n, ridx n ≠ some i → step r n i = r i) :
    ∀ (l : List κ) (x : ι → α), (∀ n ∈ l, ridx n ≠ some i) → l.foldl step x i = x i := by
  intro l
  induction l with
  | nil => intro x _; rfl
  | cons a t ih =>
    intro x h
    rw [List.foldl_cons, ih _ (fun n hn => h n (List.mem_cons_of_mem _ hn)), hmiss _ _ (h a (by simp))]

/-- If `n` is in the list and writes entry `i`, and every step of the list that writes entry `i` is `n`, then after
    the fold entry `i` holds what `n` wrote. -/
theorem foldl_hit (ridx : κ → Option ι) (g : κ → α) (step : (ι → α) → κ → (ι → α)) (i : ι)
    (hmiss : ∀ r n, ridx n ≠ some i → step r n i = r i)
    (hhit : ∀ r n, ridx n = some i → step r n i = g n) (n : κ) (hn : ridx n = some i) :
    ∀ (l : List κ) (x : ι → α), n ∈ l → (∀ m ∈ l, ridx m = some i → m = n) → l.foldl step x i = g n := by
  intro l
  induction l with
  | nil => intro x h; exact absurd h (by simp)
  | cons a t ih =>
    intro x hmem huniq
    rw [List.foldl_cons]
    by_cases hnt : n ∈ t
    · exact ih _ hnt (fun m hm => huniq m (List.mem_cons_of_mem _ hm))
    · have ha : a = n := by
        rcases List.mem_cons.1 hmem with h | h
        · exact h.symm
        · exact absurd h hnt
      rw [foldl_miss ridx step i hmiss t _ (fun m hm hmi => hnt (huniq m (List.mem_cons_of_mem _ hm) hmi ▸ hm)), ha]
      exact hhit _ _ hn

variable {s si u : Shape} {wd : Nat} {β : Type}

/-- A scatter that overwrites, read at an operand position no update lands at: the operand there. -/
theorem scatter_set_miss (d : ScatterDims s si u) (x : s.Idx → β) (idx : IVec si wd) (upd : u.Idx → β) (i : s.Idx)
    (hno : ∀ j, d.resultIdx? j idx ≠ some i) :
    Host.scatter d (fun _ b => b) x idx upd i = x i := by
  unfold Host.scatter
  refine foldl_miss (fun n => d.resultIdx? (u.rowMajor.symm n) idx) _ i ?_ _ _ (fun n _ => hno _)
  intro r n h
  beta_reduce at h ⊢
  generalize d.resultIdx? (u.rowMajor.symm n) idx = o at h ⊢
  cases o with
  | none => rfl
  | some i0 =>
    show (if i = i0 then upd (u.rowMajor.symm n) else r i) = r i
    rw [if_neg]
    intro hi
    exact h (congrArg some hi.symm)

/-- A scatter that overwrites, read at an operand position exactly one update lands at: that update. -/
theorem scatter_set_hit (d : ScatterDims s si u) (x : s.Idx → β) (idx : IVec si wd) (upd : u.Idx → β) (i : s.Idx)
    (j : u.Idx) (hj : d.resultIdx? j idx = some i) (huniq : ∀ j', d.resultIdx? j' idx = some i → j' = j) :
    Host.scatter d (fun _ b => b) x idx upd i = upd j := by
  unfold Host.scatter
  refine (foldl_hit (fun n => d.resultIdx? (u.rowMajor.symm n) idx) (fun n => upd (u.rowMajor.symm n)) _ i ?_ ?_
    (u.rowMajor j) ?_ _ _ (List.mem_finRange _) ?_).trans ?_
  · intro r n h
    beta_reduce at h ⊢
    generalize d.resultIdx? (u.rowMajor.symm n) idx = o at h ⊢
    cases o with
    | none => rfl
    | some i0 =>
      show (if i = i0 then upd (u.rowMajor.symm n) else r i) = r i
      rw [if_neg]
      intro hi
      exact h (congrArg some hi.symm)
  · intro r n h
    beta_reduce at h ⊢
    generalize d.resultIdx? (u.rowMajor.symm n) idx = o at h ⊢
    cases o with
    | none => exact absurd h (by simp)
    | some i0 =>
      have h0 : i0 = i := Option.some.inj h
      show (if i = i0 then upd (u.rowMajor.symm n) else r i) = upd (u.rowMajor.symm n)
      rw [if_pos h0.symm]
  · beta_reduce
    rw [Equiv.symm_apply_apply]
    exact hj
  · intro m _ hm
    beta_reduce at hm
    have := huniq _ hm
    rw [← this, Equiv.apply_symm_apply]
  · beta_reduce
    rw [Equiv.symm_apply_apply]

end Cert.PadScatterFold

namespace Cert.KernelIdeal.HostVal

open Cert.KernelIdeal Cert.KernelIdeal.Gen Idealize.ShloMosaic Idealize.ShloMosaic.ValueIdx

/-- Each axis of the features is no longer than the same axis of the padded features. -/
private theorem size_le (a : Fin 2) : S10000x128.size a ≤ S10112x128.size a :=
  match a with
  | ⟨0, _⟩ => by show (10000 : ℕ) ≤ 10112; omega
  | ⟨1, _⟩ => by show (128 : ℕ) ≤ 128; omega

/-- A position of the features read as a position of the padded features: the same coordinates. -/
private def emb (y : S10000x128.Idx) : S10112x128.Idx := fun a => ⟨(y a).val, lt_of_lt_of_le (y a).isLt (size_le a)⟩

/-- The one scatter index of the padding: zero. -/
private abbrev idx0 : IVec S1 32 := broadcastInDim S1 ![] bcast_S_S1 (constantI S_ 32 0#32)

/-- The window of every update starts at zero on both axes. -/
private theorem start_eq (y : S10000x128.Idx) (a : Fin S10112x128.rank) :
    scatter_S10112x128_S1_S10000x128_01_n_0_0.start y idx0 a = 0 := by
  unfold ScatterDims.start
  split
  · show (0#32 : BitVec 32).toInt = 0
    rfl
  · rfl

/-- The window coordinate of an update position on an axis is its own coordinate on that axis. -/
private theorem window_eq (y : S10000x128.Idx) (a : Fin S10112x128.rank) :
    scatter_S10112x128_S1_S10000x128_01_n_0_0.window y a = (y a).val :=
  match a with
  | ⟨0, _⟩ => rfl
  | ⟨1, _⟩ => rfl

/-- Every update position lands at the operand position with the same coordinates. -/
private theorem resultIdx_eq (y : S10000x128.Idx) :
    scatter_S10112x128_S1_S10000x128_01_n_0_0.resultIdx? y idx0 = some (emb y) := by
  unfold ScatterDims.resultIdx?
  have h : ∀ a, 0 ≤ scatter_S10112x128_S1_S10000x128_01_n_0_0.start y idx0 a
        + scatter_S10112x128_S1_S10000x128_01_n_0_0.window y a
      ∧ scatter_S10112x128_S1_S10000x128_01_n_0_0.start y idx0 a
        + scatter_S10112x128_S1_S10000x128_01_n_0_0.window y a < S10112x128.size a := by
    intro a
    rw [start_eq, window_eq]
    have hlt : (y a).val < S10112x128.size a := lt_of_lt_of_le (y a).isLt (size_le a)
    omega
  rw [dif_pos h]
  refine congrArg some (funext fun a => Fin.ext ?_)
  show (scatter_S10112x128_S1_S10000x128_01_n_0_0.start y idx0 a
      + scatter_S10112x128_S1_S10000x128_01_n_0_0.window y a).toNat = (y a).val
  rw [start_eq, window_eq]
  omega

/-- Entry `(r, c)` of the padded features. -/
theorem padArr_apply (x : FVec Ideal S10000x128 .f32) (r : Fin 10112) (c : Fin 128) :
    padArr (F := Ideal) x (ix2 r c) = if h : r.val < 10000 then x (ix2 ⟨r.val, h⟩ c) else (0 : EReal) := by
  unfold padArr
  by_cases h : r.val < 10000
  · rw [dif_pos h]
    refine Cert.PadScatterFold.scatter_set_hit _ _ _ _ (ix2 r c) (ix2 ⟨r.val, h⟩ c) ?_ ?_
    · rw [resultIdx_eq]
      refine congrArg some (funext fun a => ?_)
      match a with
      | ⟨0, _⟩ => rfl
      | ⟨1, _⟩ => rfl
    · intro j' hj'
      rw [resultIdx_eq] at hj'
      have he := Option.some.inj hj'
      funext a
      match a with
      | ⟨0, _⟩ => exact Fin.ext (congrArg (fun k : S10112x128.Idx => (k 0).val) he)
      | ⟨1, _⟩ => exact Fin.ext (congrArg (fun k : S10112x128.Idx => (k 1).val) he)
  · rw [dif_neg h]
    rw [Cert.PadScatterFold.scatter_set_miss _ _ _ _ (ix2 r c)]
    · show Ideal.ofBits .f32 0x00000000#32 = 0
      exact Ideal.ofBits_zero_f32
    · intro j' hj'
      rw [resultIdx_eq] at hj'
      have he := congrArg (fun k : S10112x128.Idx => (k 0).val) (Option.some.inj hj')
      have h0 : (j' 0).val = r.val := he
      have := idx2_lt0 j'
      omega

end Cert.KernelIdeal.HostVal

end
-- ==== Proof.KValue.lean ====
/-
  The kernel program's result buffer, followed back through @main to the arguments, and read over the reals.

  @main is: a host stretch that builds the dense adjacency matrix, the zero-padded features and the first scale row; the
  first matrix-product region (with the hyperbolic tangent); a host stretch that takes the second scale row; the second
  region, whose features are the first region's output; and a slice of the first 10000 rows. Each buffer at each
  boundary is the corresponding function of the arguments, so the result is two dense layers of the arguments. With real
  entries and indices in range that is `outK`, entry by entry.
-/
import proofs.«404564_j68204080660516_2_alg».proof.Proof.Gen.KernelIdeal.Frame
import proofs.«404564_j68204080660516_2_alg».proof.Proof.KHost
import proofs.«404564_j68204080660516_2_alg».proof.Proof.KRegion
import proofs.«404564_j68204080660516_2_alg».proof.Proof.AdjValue
import proofs.«404564_j68204080660516_2_alg».proof.Proof.PadValue
import proofs.«404564_j68204080660516_2_alg».proof.Proof.Spec
import Idealize.ShloMosaic.Lib.StableHlo.Run
import Idealize.ShloMosaic.Lib.Pipeline.Value

set_option maxRecDepth 16384

noncomputable section

namespace Cert.KernelIdeal.KVal

open Cert.KernelIdeal Cert.KernelIdeal.Gen Cert.KernelIdeal.HostVal Cert.KernelIdeal.Region Cert.Spmm
open Idealize.ShloMosaic Idealize.ShloMosaic.TcCoe Idealize.ShloMosaic.ValueIdx Idealize.SL.Sem Idealize.ShloMosaic.StableHlo
open Idealize.ShloMosaic.Pipeline (Dat Cfg Window)
open scoped BigOperators

/-! ## Reals inside the extended reals -/

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A dense layer of arrays with real entries is the real dense layer, under `act`. -/
theorem layerFn_coe (act : EReal → EReal) (A : FVec Ideal S10112x10112 .f32) (H : FVec Ideal S10112x128 .f32)
    (w : FVec Ideal S1x128 .f32) (a : ℕ → ℕ → ℝ) (h : ℕ → Fin 128 → ℝ) (wv : Fin 128 → ℝ)
    (hA : ∀ r k : Fin 10112, A (ix2 r k) = ((a r.val k.val : ℝ) : EReal))
    (hH : ∀ (k : Fin 10112) (q : Fin 128), H (ix2 k q) = ((h k.val q : ℝ) : EReal))
    (hw : ∀ q : Fin 128, w (ix2 (0 : Fin 1) q) = ((wv q : ℝ) : EReal)) (r : Fin 10112) (q : Fin 128) :
    layerFn act A H w (ix2 r q) = act (((∑ k : Fin 10112, a r.val k.val * h k.val q) * wv q : ℝ) : EReal) := by
  unfold layerFn
  simp only [hA, hH, hw]
  rw [EReal.coe_mul, coe_sum]
  simp only [EReal.coe_mul]

/-! ## The scale rows -/

theorem wRow0_apply (W : FVec Ideal S2x128 .f32) (q : Fin 128) : wRow0 (F := Ideal) W (ix2 (0 : Fin 1) q) = W (ix2 (0 : Fin 2) q) := by
  unfold wRow0
  refine (shapeCast_apply _ _ (ix2 (0 : Fin 1) q) (ix1 q) (by
    rw [Shape.rowMajor_val_two, Shape.rowMajor_val_one]; show q.val = 0 * 128 + q.val; omega)).trans ?_
  refine (shapeCast_apply _ _ (ix1 q) (ix2 (0 : Fin 1) q) (by
    rw [Shape.rowMajor_val_two, Shape.rowMajor_val_one]; show 0 * 128 + q.val = q.val; omega)).trans ?_
  exact extractStridedSlice_apply ![0, 0] W _ (ix2 (0 : Fin 1) q) (ix2 (0 : Fin 2) q) (fun a => match a with
    | ⟨0, _⟩ => by show 0 = 0 + 0; omega
    | ⟨1, _⟩ => by show q.val = 0 + q.val; omega)

theorem wRow1_apply (W : FVec Ideal S2x128 .f32) (q : Fin 128) : wRow1 (F := Ideal) W (ix2 (0 : Fin 1) q) = W (ix2 (1 : Fin 2) q) := by
  unfold wRow1
  refine (shapeCast_apply _ _ (ix2 (0 : Fin 1) q) (ix1 q) (by
    rw [Shape.rowMajor_val_two, Shape.rowMajor_val_one]; show q.val = 0 * 128 + q.val; omega)).trans ?_
  refine (shapeCast_apply _ _ (ix1 q) (ix2 (0 : Fin 1) q) (by
    rw [Shape.rowMajor_val_two, Shape.rowMajor_val_one]; show 0 * 128 + q.val = q.val; omega)).trans ?_
  exact extractStridedSlice_apply ![1, 0] W _ (ix2 (0 : Fin 1) q) (ix2 (1 : Fin 2) q) (fun a => match a with
    | ⟨0, _⟩ => by show 1 = 1 + 0; omega
    | ⟨1, _⟩ => by show q.val = 0 + q.val; omega)

/-! ## The buffers at the boundaries of @main -/

variable (m : (ℓ : Loc nD τ sig) → Buf (Elt Ideal) ℓ) (ρ : Dev nD → PrngReg)

set_option maxHeartbeats 2000000 in
/-- The three arrays the first region is entered with. -/
theorem V1_adj (c : Dev nD) : (V1 m ρ c main_v11 : FVec Ideal S10112x10112 .f32)
    = adjArr (F := Ideal) (m ((c : Thread nD τ).loc main_arg1)) (m ((c : Thread nD τ).loc main_arg2)) (m ((c : Thread nD τ).loc main_arg3)) := by
  dsimp only [V1, W1, hostOps0]
  after_results_simp
  rfl
theorem V1_pad (c : Dev nD) : (V1 m ρ c main_v14 : FVec Ideal S10112x128 .f32)
    = padArr (F := Ideal) (m ((c : Thread nD τ).loc main_arg0)) := by
  dsimp only [V1, W1, hostOps0]
  after_results
  rfl
theorem V1_w0 (c : Dev nD) : (V1 m ρ c main_v17 : FVec Ideal S1x128 .f32)
    = wRow0 (F := Ideal) (m ((c : Thread nD τ).loc main_arg4)) := by
  dsimp only [V1, W1, hostOps0]
  after_results
  rfl

/-- After the first region: the adjacency as entered, the output at the first layer. -/
theorem W2_adj (c : Dev nD) : W2 m ρ c (Proc.devRef .tc main_v11) = V1 m ρ c main_v11 :=
  (W2_arr m ρ c 0).trans (kept0_adj (V1 m ρ) c)
theorem W2_out (c : Dev nD) : W2 m ρ c (Proc.devRef .tc main_v18)
    = layerFn Ideal.tanh (V1 m ρ c main_v11) (V1 m ρ c main_v14) (V1 m ρ c main_v17) :=
  (W2_arr m ρ c 3).trans (final0 (V1 m ρ) c)
theorem W2_scale (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The three arrays the second region is entered with. -/
theorem V3_adj (c : Dev nD) : V3 m ρ c main_v11 = V1 m ρ c main_v11 :=
  calc V3 m ρ c main_v11
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V1 m ρ c main_v11 := W2_adj m ρ c
theorem V3_feat (c : Dev nD) : V3 m ρ c main_v18
    = layerFn Ideal.tanh (V1 m ρ c main_v11) (V1 m ρ c main_v14) (V1 m ρ c main_v17) :=
  calc V3 m ρ c main_v18
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W2_out m ρ c
theorem V3_w1 (c : Dev nD) : (V3 m ρ c main_v21 : FVec Ideal S1x128 .f32)
    = wRow1 (F := Ideal) (m ((c : Thread nD τ).loc main_arg4)) := by
  refine Eq.trans ?_ (congrArg (wRow1 (F := Ideal)) (W2_scale m ρ c))
  dsimp only [V3, W3, hostOps1]
  after_results
  rfl

/-- After the second region its output is the second layer; the result buffer is its first 10000 rows. -/
theorem W4_out (c : Dev nD) : W4 m ρ c (Proc.devRef .tc main_v22)
    = layerFn id (V3 m ρ c main_v11) (V3 m ρ c main_v18) (V3 m ρ c main_v21) :=
  (W4_arr m ρ c 3).trans (final1 (V3 m ρ) c)
theorem W5_result (c : Dev nD) : W5 m ρ c (Proc.devRef .tc main_v23)
    = extractStridedSlice S10000x128 ![0, 0] (W4 m ρ c (Proc.devRef .tc main_v22)) slices_S10112x128_S10000x128_0_0 := by
  dsimp only [W5, hostOps2]
  after_results

/-! ## Over the reals -/

/-- With real entries and indices in range, entry `(r, j)` of the kernel program's result is `outK` at `(r, j)`. -/
theorem kernel_value (c : Dev nD) (xr : S10000x128.Idx → ℝ) (src dst : IVec S640000 32) (vr : S640000.Idx → ℝ)
    (wr : S2x128.Idx → ℝ)
    (hx : m ((c : Thread nD τ).loc main_arg0) = fun a => ((xr a : ℝ) : EReal))
    (hsrc : m ((c : Thread nD τ).loc main_arg1) = src) (hdst : m ((c : Thread nD τ).loc main_arg2) = dst)
    (hv : m ((c : Thread nD τ).loc main_arg3) = fun a => ((vr a : ℝ) : EReal))
    (hW : m ((c : Thread nD τ).loc main_arg4) = fun a => ((wr a : ℝ) : EReal))
    (hs : ∀ e, 0 ≤ (src e).toInt ∧ (src e).toInt < 10000) (hd : ∀ e, 0 ≤ (dst e).toInt ∧ (dst e).toInt < 10000)
    (i : S10000x128.Idx) :
    W5 m ρ c (Proc.devRef .tc main_v23) i
      = ((outK (idxOf src) (idxOf dst) (valsOf vr) (featOf xr) (rowOf wr 0) (rowOf wr 1) (i 0).val (i 1) : ℝ) : EReal) := by
  have hi0 : (i 0).val < 10000 := (i 0).isLt
  have hi1 : (i 1).val < 128 := (i 1).isLt
  -- the three arrays of the first layer, entry by entry
  have hA : ∀ r k : Fin 10112, V1 m ρ c main_v11 (ix2 r k)
      = ((adj (idxOf src) (idxOf dst) (valsOf vr) r.val k.val : ℝ) : EReal) := fun r k => by
    rw [V1_adj, hsrc, hdst, hv]; exact adjArr_apply src dst vr hs hd r k
  have hH : ∀ (k : Fin 10112) (q : Fin 128), V1 m ρ c main_v14 (ix2 k q)
      = ((Cert.Spmm.pad (featOf xr) k.val q : ℝ) : EReal) := fun k q => by
    rw [V1_pad, hx, padArr_apply]
    unfold Cert.Spmm.pad featOf
    by_cases hk : k.val < 10000
    · rw [dif_pos hk, if_pos hk, dif_pos hk]
    · rw [dif_neg hk, if_neg hk]; rfl
  have hw0 : ∀ q : Fin 128, V1 m ρ c main_v17 (ix2 (0 : Fin 1) q) = ((rowOf wr 0 q : ℝ) : EReal) := fun q => by
    rw [V1_w0, hW, wRow0_apply]; rfl
  have hw1 : ∀ q : Fin 128, V3 m ρ c main_v21 (ix2 (0 : Fin 1) q) = ((rowOf wr 1 q : ℝ) : EReal) := fun q => by
    rw [V3_w1, hW, wRow1_apply]; rfl
  -- the first layer's output, entry by entry
  have hF : ∀ (k : Fin 10112) (q : Fin 128), V3 m ρ c main_v18 (ix2 k q)
      = ((Real.tanh (layerK (idxOf src) (idxOf dst) (valsOf vr) (Cert.Spmm.pad (featOf xr)) (rowOf wr 0) k.val q) : ℝ) : EReal) :=
    fun k q => by
      rw [V3_feat, layerFn_coe Ideal.tanh _ _ _ _ _ _ hA hH hw0 k q, Ideal.tanh_coe]; rfl
  have hA' : ∀ r k : Fin 10112, V3 m ρ c main_v11 (ix2 r k)
      = ((adj (idxOf src) (idxOf dst) (valsOf vr) r.val k.val : ℝ) : EReal) := fun r k => by
    rw [V3_adj]; exact hA r k
  -- the slice reads row `i 0` of the second layer
  rw [W5_result]
  have hi0' : (i 0).val < 10112 := by omega
  refine (extractStridedSlice_apply (s := S10112x128) (t := S10000x128) ![0, 0] (W4 m ρ c (Proc.devRef .tc main_v22))
    slices_S10112x128_S10000x128_0_0 i
    (ix2 (⟨(i 0).val, hi0'⟩ : Fin 10112) (⟨(i 1).val, hi1⟩ : Fin 128) : S10112x128.Idx) (fun a => match a with
    | ⟨0, _⟩ => by show (i 0).val = 0 + (i 0).val; omega
    | ⟨1, _⟩ => by show (i 1).val = 0 + (i 1).val; omega)).trans ?_
  rw [W4_out, layerFn_coe id _ _ _ (adj (idxOf src) (idxOf dst) (valsOf vr))
    (fun r' j' => Real.tanh (layerK (idxOf src) (idxOf dst) (valsOf vr) (Cert.Spmm.pad (featOf xr)) (rowOf wr 0) r' j'))
    (rowOf wr 1) hA' hF hw1 ⟨(i 0).val, hi0'⟩ ⟨(i 1).val, hi1⟩]
  rfl

end Cert.KernelIdeal.KVal

end
-- ==== Proof.lean ====
/-
  Two layers of message passing on a graph of 10000 nodes and 640000 weighted edges, computed two ways, are the same
  function of the inputs over the extended reals.

  The reference walks the edge list: each layer scales the node features columnwise, gathers the source node's row for
  every edge, scales it by the edge's weight and adds it into the destination node's row; a hyperbolic tangent sits
  between the layers. The kernel first adds the edge weights into a dense adjacency matrix of side 10112 (the node count
  padded to a multiple of 128) at the flat position `dst * 10112 + src`, pads the features with zero rows, and runs each
  layer as one tiled matrix product `(A · h) * w` (the first followed by the hyperbolic tangent), keeping the first
  10000 rows of the last product.

  The statement is made under a precondition: the float inputs are finite and every entry of `src` and `dst` is a
  node number, `0 ≤ · < 10000` (outside that range the two programs index differently: the reference clamps a source
  row into the table and drops a destination outside it, the kernel's flat position lands in another row or in the
  padding). Under it every intermediate value is a real number, the flat position determines the pair (row, column),
  and
      (∑ c, (∑ e with dst e = r and src e = c, v e) * h c j) * w j  =  ∑ e with dst e = r, (h (src e) j * w j) * v e
  by distributivity over finite sums of reals (module Spec). The reference's side of this identity is read off its
  generated run (module RefValue), the kernel's off the launch of its two regions: the result buffer followed back
  through @main (modules KRun, KRegion, KValue), the adjacency and the padding read entry by entry (AdjValue,
  PadValue), a grid step's stored block as a sum over the shared coordinate (PayValue). The three frames are the
  generated ones; the idealization rewrote nothing, so `preserves` has no conjunct.
-/
import proofs.«404564_j68204080660516_2_alg».proof.Defs
import proofs.«404564_j68204080660516_2_alg».proof.Proof.Gen.Kernel
import proofs.«404564_j68204080660516_2_alg».proof.Proof.Gen.Kernel.Frame
import proofs.«404564_j68204080660516_2_alg».proof.Proof.Gen.KernelIdeal
import proofs.«404564_j68204080660516_2_alg».proof.Proof.Gen.KernelIdeal.Frame
import proofs.«404564_j68204080660516_2_alg».proof.Proof.Gen.ReferenceIdeal
import proofs.«404564_j68204080660516_2_alg».proof.Proof.Gen.Pre_finite_inputs
import proofs.«404564_j68204080660516_2_alg».proof.Proof.Gen.ReferenceIdeal.Run
import proofs.«404564_j68204080660516_2_alg».proof.Proof.Gen.ReferenceIdeal.Read
import proofs.«404564_j68204080660516_2_alg».proof.Proof.Spec
import proofs.«404564_j68204080660516_2_alg».proof.Proof.PreFacts
import proofs.«404564_j68204080660516_2_alg».proof.Proof.RefValue
import proofs.«404564_j68204080660516_2_alg».proof.Proof.KRun
import proofs.«404564_j68204080660516_2_alg».proof.Proof.KValue
import Idealize.ShloMosaic.Adequacy
import Idealize.ShloMosaic.Init

noncomputable section

namespace Cert.Proof

open Idealize.ShloMosaic Idealize.ShloMosaic.ValueIdx Idealize.SL.Sem

/-- The word-level kernel program runs and leaves its arguments as launched: the generated frame. -/
theorem frame_k : Cert.frame_Kernel := fun m ρ _ => Cert.Kernel.Gen.frame m ρ

/-- The same for the kernel program read over the extended reals. -/
theorem frame_ki : Cert.frame_KernelIdeal := fun m ρ _ => Cert.KernelIdeal.Gen.frame m ρ

/-- The reference runs and leaves its arguments as launched: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result array: on each device the precondition gives real entries and node numbers
    in range, the kernel program's result is then `outK` entry by entry and the reference's `outR`, and the two are
    equal. -/
theorem algebraic : Cert.algebraic_KernelIdeal_ReferenceIdeal := by
  intro m ρ m' ρ' hpre hagree
  refine ⟨fun c => Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.ResultRun.run_result m ρ)
    obtain ⟨⟨xr, hx⟩, ⟨vr, hv⟩, ⟨wr, hW⟩, hs, hd⟩ := Cert.PreFacts.of_pre _ _ _ _ _ (hpre c)
    refine funext fun (i : Cert.KernelIdeal.S10000x128.Idx) => ?_
    show Cert.KernelIdeal.Gen.W5 m ρ c (Proc.devRef .tc Cert.KernelIdeal.main_v23) i
      = Cert.ReferenceIdeal.Read.val_main_v36 (F := Ideal) _ _ _ _ _ i
    rw [Cert.KernelIdeal.KVal.kernel_value m ρ c xr _ _ vr wr hx rfl rfl hv hW hs hd i]
    rw [hx, hv, hW]
    rw [Cert.ReferenceIdeal.RefValue.ref_value xr _ _ vr wr hs hd i]
    exact congrArg (fun t : ℝ => (t : EReal)) (Cert.Spmm.outK_eq_outR _ _ _ (fun e => by
      have := hs (ix1 e); unfold Cert.Spmm.idxOf; omega) _ _ _ _ _)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v36_eq _ _ _ _ _).trans ?_
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
